-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x32 : Shape := ⟨2, ![100000, 32]⟩
abbrev S32 : Shape := ⟨1, ![32]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S32 : S_.BroadcastsInDim S32 (![] : Fin 0 → Fin S32.rank)
  reducesTo_S32_S_d0 : S32.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S100000x32 .f32) (main_arg2 : FVec F S32 .f32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S100000x32 : Shape := ⟨2, ![100000, 32]⟩
abbrev S32 : Shape := ⟨1, ![32]⟩
abbrev S128x128 : Shape := ⟨2, ![128, 128]⟩
abbrev S128 : Shape := ⟨1, ![128]⟩
abbrev S32x1 : Shape := ⟨2, ![32, 1]⟩
abbrev S1x128 : Shape := ⟨2, ![1, 128]⟩
abbrev S2000x32 : Shape := ⟨2, ![2000, 32]⟩
abbrev S2000x128 : Shape := ⟨2, ![2000, 128]⟩
abbrev S32x128 : Shape := ⟨2, ![32, 128]⟩

abbrev nBuf : Space → Nat
  | .hbm => 11
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S100000x32, .f32⟩
  | .hbm, ⟨2, _⟩ => ⟨S32, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S32x1, .f32⟩
  | .hbm, ⟨8, _⟩ => ⟨S1x128, .f32⟩
  | .hbm, ⟨9, _⟩ => ⟨S1x128, .f32⟩
  | .hbm, ⟨10, _⟩ => ⟨S100000x128, .f32⟩
  | .local _ .vmem, ⟨0, _⟩ => ⟨S2000x32, .f32⟩
  | .local _ .vmem, ⟨1, _⟩ => ⟨S2000x32, .f32⟩
  | .local _ .vmem, ⟨2, _⟩ => ⟨S2000x128, .f32⟩
  | .local _ .vmem, ⟨3, _⟩ => ⟨S2000x128, .f32⟩
  | .local _ .vmem, ⟨4, _⟩ => ⟨S32x1, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S32x128, .f32⟩
  | .local _ .vmem, ⟨12, _⟩ => ⟨S100000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c2000_i32 : BitVec 32 := 2000#32
  let v24 : BitVec 32 := Scalar.muli arg1 c2000_i32
  let v25 : Index := Scalar.indexCast v24
  let c0_15 : Index := 0#32
  ![v25.toNat, 0]
def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def k0_off2 (i : grid0.Coords) : Fin 2 → Nat :=
  let arg1 : BitVec 32 := BitVec.ofNat 32 (i 1).val
  let c2000_i32 : BitVec 32 := 2000#32
  let v16 : BitVec 32 := Scalar.muli arg1 c2000_i32
  let v17 : Index := Scalar.indexCast v16
  let c0 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c49_i32 : BitVec 32 := 49#32
  let v1 : BitVec 32 := Scalar.select v0 arg1 c49_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S32_S32x1 : S32.ShapeCasts S32x1
  shapeCasts_S128_S1x128 : S128.ShapeCasts S1x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S2000x32_S2000x32_0_0 : ∀ a, (![0, 0] : Fin 2 → Nat) a + S2000x32.size a ≤ S2000x32.size a
  h_S2000x32 : 0 < S2000x32.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x128 : S32x1.Broadcasts S32x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  broadcasts_S1x128_S2000x128 : S1x128.Broadcasts S2000x128
  dot_S2000x32_S2000x128_S32x128_0_0_1_1_n_n_wf : DotDims.WF S2000x32 S2000x128 S32x128 [0] [0] [1] [1] [] []
  dot_S32x128_S128x128_S32x128_1_0_0_1_n_n_wf : DotDims.WF S32x128 S128x128 S32x128 [1] [0] [0] [1] [] []
  dot_S2000x32_S32x128_S2000x128_1_0_0_1_n_n_wf : DotDims.WF S2000x32 S32x128 S2000x128 [1] [0] [0] [1] [] []
  hrank0 : 0 < grid0.rank
  k0_off1_inb : ∀ i : grid0.Coords, ∀ (k0_h2 : k0_cond2 i = 1#1), ∀ a, (k0_off1 i) a + S2000x128.size a ≤ S100000x128.size a
  k0_off2_inb : ∀ i : grid0.Coords, ∀ (k0_h4 : k0_cond4 i = 1#1), ∀ a, (k0_off2 i) a + S2000x128.size a ≤ S100000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)

variable [Facts₀]

def dot_S2000x32_S2000x128_S32x128_0_0_1_1_n_n : DotDims S2000x32 S2000x128 S32x128 where
  lhsContracting := [0]
  rhsContracting := [0]
  lhsNonContracting := [1]
  rhsNonContracting := [1]
  lhsBatch := []
  rhsBatch := []
  wf := dot_S2000x32_S2000x128_S32x128_0_0_1_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf

abbrev win0_0 : Pipeline.Window sig grid0 :=
  Pipeline.Window.ofSpec (Memref.whole main_arg1) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S100000x32 : Shape := ⟨2, ![100000, 32]⟩
abbrev S32 : Shape := ⟨1, ![32]⟩
abbrev S128x128 : Shape := ⟨2, ![128, 128]⟩
abbrev S128 : Shape := ⟨1, ![128]⟩
abbrev S32x100000 : Shape := ⟨2, ![32, 100000]⟩
abbrev S32x128 : Shape := ⟨2, ![32, 128]⟩
abbrev S32x1 : Shape := ⟨2, ![32, 1]⟩
abbrev S1x128 : Shape := ⟨2, ![1, 128]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x32, .f32⟩
  | .hbm, ⟨2, _⟩ => ⟨S32, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S32x100000, .f32⟩
  | .hbm, ⟨8, _⟩ => ⟨S32x128, .f32⟩
  | .hbm, ⟨9, _⟩ => ⟨S32x1, .f32⟩
  | .hbm, ⟨10, _⟩ => ⟨S32x128, .f32⟩
  | .hbm, ⟨11, _⟩ => ⟨S32x128, .f32⟩
  | .hbm, ⟨12, _⟩ => ⟨S32x128, .f32⟩
  | .hbm, ⟨13, _⟩ => ⟨S1x128, .f32⟩
  | .hbm, ⟨14, _⟩ => ⟨S32x128, .f32⟩
  | .hbm, ⟨15, _⟩ => ⟨S32x128, .f32⟩
  | .hbm, ⟨16, _⟩ => ⟨S32x128, .f32⟩
  | .hbm, ⟨17, _⟩ => ⟨S32x128, .f32⟩
  | .hbm, ⟨18, _⟩ => ⟨S_, .f32⟩
  | .hbm, ⟨19, _⟩ => ⟨S32x128, .f32⟩
  | .hbm, ⟨20, _⟩ => ⟨S32x128, .f32⟩
  | .hbm, ⟨21, _⟩ => ⟨S_, .f32⟩
  | .hbm, ⟨22, _⟩ => ⟨S32x128, .f32⟩
  | .hbm, ⟨23, _⟩ => ⟨S32x128, .f32⟩
  | .hbm, ⟨24, _⟩ => ⟨S32x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  transposes_S100000x32_S32x100000_1_0 : S100000x32.Transposes [1, 0] S32x100000
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  bcast_S1x128_S100000x128_0_1 : S1x128.BroadcastsInDim S100000x128 (![0, 1] : Fin 2 → Fin S100000x128.rank)
  dot_S32x100000_S100000x128_S32x128_1_0_0_1_n_n_wf : DotDims.WF S32x100000 S100000x128 S32x128 [1] [0] [0] [1] [] []
  dot_S32x128_S128x128_S32x128_1_0_0_1_n_n_wf : DotDims.WF S32x128 S128x128 S32x128 [1] [0] [0] [1] [] []
  dot_S100000x32_S32x128_S100000x128_1_0_0_1_n_n_wf : DotDims.WF S100000x32 S32x128 S100000x128 [1] [0] [0] [1] [] []
  dot_S100000x128_S128x128_S100000x128_1_0_0_1_n_n_wf : DotDims.WF S100000x128 S128x128 S100000x128 [1] [0] [0] [1] [] []

variable [Facts₀]

def dot_S32x100000_S100000x128_S32x128_1_0_0_1_n_n : DotDims S32x100000 S100000x128 S32x128 where
  lhsContracting := [1]
  rhsContracting := [0]
  lhsNonContracting := [0]
  rhsNonContracting := [1]
  lhsBatch := []
  rhsBatch := []
  wf := dot_S32x100000_S100000x128_S32x128_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRuns.lean ====
/-
  The grid of the one kernel region has 100 points: 50 points of a first phase, then 50 of a second. What the
  body does at a point depends on four conditions of its coordinates, which hold, in point order, at point 0
  only (reset the accumulator), at the points below 50 (accumulate and cache), at point 50 only (gate the
  spectrum and fold the output matrix in) and at the points from 50 on (write an output block). The output
  window is untouched and not written back below point 50, and written back at every point from 50 on.
  Also here: each window's staging buffer at a point, the two scratch buffers, and the region's invariant
  spelled out as those two scratch buffers at some contents and the generator register at some state.
-/
import proofs.«150664_g34772055229035_cont_8to1_b_1465_6_alg».proof.Proof.Gen.Kernel.Frame
import proofs.«150664_g34772055229035_cont_8to1_b_1465_6_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions, decided over the grid -/

abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0 : ∀ t : Fin cfg0.N, cond0 (grid0.coords t) ↔ t.val = 0 :=
  (by decide +kernel : ∀ t : Fin grid0.N, cond0 (grid0.coords t) ↔ t.val = 0)

abbrev cond1 (i : grid0.Coords) : Prop := k0_cond2 i = 1#1
theorem hcond1 : ∀ t : Fin cfg0.N, cond1 (grid0.coords t) ↔ t.val < 50 :=
  (by decide +kernel : ∀ t : Fin grid0.N, cond1 (grid0.coords t) ↔ t.val < 50)

abbrev cond2 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
theorem hcond2 : ∀ t : Fin cfg0.N, cond2 (grid0.coords t) ↔ t.val = 50 :=
  (by decide +kernel : ∀ t : Fin grid0.N, cond2 (grid0.coords t) ↔ t.val = 50)

abbrev cond3 (i : grid0.Coords) : Prop := k0_cond4 i = 1#1
theorem hcond3 : ∀ t : Fin cfg0.N, cond3 (grid0.coords t) ↔ 50 ≤ t.val :=
  (by decide +kernel : ∀ t : Fin grid0.N, cond3 (grid0.coords t) ↔ 50 ≤ t.val)

/-! ## Where the windows are idle, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The output window is idle exactly below point 50. -/
theorem idle7 : ∀ t : Fin cfg0.N, cfg0.idle 7 (grid0.coords t) = true ↔ t.val < 50 :=
  (by decide +kernel : ∀ t : Fin grid0.N, cfg0.idle 7 (grid0.coords t) = true ↔ t.val < 50)
/-- and written back exactly from point 50 on. -/
theorem flush7 : ∀ t : Fin cfg0.N, (cfg0.win 7).flush t = true ↔ 50 ≤ t.val :=
  (by decide +kernel : ∀ t : Fin grid0.N, win0_7.flush t = true ↔ 50 ≤ t.val)

/-! ## The staging buffers at a point, and the scratch buffers -/

abbrev ms0 (t : Fin cfg0.N) : Memref sig .tc .vmem S2000x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2000x128 .f32 := win0_7.stage (cfg0.slots t 7)
abbrev hs7 (t : Fin cfg0.N) : (ms7 t).IsWhole := hstage0_7 ((cfg0.slots t 7).cast nbuf0_7)
/-- The accumulator scratch and the feature cache: whole scoped buffers of the kernel's own. -/
abbrev accM : Memref sig .tc .vmem S32x128 .f32 := Memref.whole cc0_scratch0
abbrev cacheM : Memref sig .tc .vmem S100000x128 .f32 := Memref.whole cc0_scratch1

/-- What the launch hands the region besides the windows: the two scratch buffers at some contents and the
    generator register at some state. -/
theorem PhiA_eq (c : Dev nD) :
    (Pipeline.ΦA spec0 c : sProp 𝕄)
      = iprop(iprop((∃ d, owns (c : Thread nD τ) accM fullShare d) ∗ (∃ d, owns (c : Thread nD τ) cacheM fullShare d)) ∗ (∃ r, prngReg c r)) := by
  unfold Pipeline.ΦA; rw [scopedRest0_eq]; simp only [accM, cacheM, owns_whole]; try rfl

end Cert.Kernel.Hand

end
-- ==== Proof.KernelRunA.lean ====
/-
  The body at point 0, on any whole staging buffers: the accumulator scratch is reset and then holds the first
  block's product, the block's feature rows go into the cache, and the output buffer is not touched. The run finds
  what the accumulator's stores leave (as a list of pieces, newest first) and what the cache holds afterwards.
-/
import proofs.«150664_g34772055229035_cont_8to1_b_1465_6_alg».proof.Proof.KernelRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : cond0 i) (hc1 : cond1 i) (hc2 : ¬cond2 i) (hc3 : ¬cond3 i)
    (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xc : Vec F S100000x128 .f32) :
    { R : List (View.Piece (Elt F) S32x128 .f32) × Vec F S100000x128 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f R.1) ∗ owns (c : Thread nD τ) arg11 fullShare R.2) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    iexists _; isplitr; swap; · iexact HS1
    ipureintro; rfl

end Cert.Kernel.Hand

end
-- ==== Proof.KernelRunB.lean ====
/-
  The body at a point strictly between 0 and 50: the accumulator scratch, found at what the point before left,
  gains this block's product, the block's feature rows go into the cache, and the output buffer is not touched.
-/
import proofs.«150664_g34772055229035_cont_8to1_b_1465_6_alg».proof.Proof.KernelRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : cond1 i) (hc2 : ¬cond2 i) (hc3 : ¬cond3 i)
    (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xs0 : Vec F S32x128 .f32) (xc : Vec F S100000x128 .f32) :
    { R : List (View.Piece (Elt F) S32x128 .f32) × Vec F S100000x128 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs0 ∗ owns (c : Thread nD τ) arg11 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f R.1) ∗ owns (c : Thread nD τ) arg11 fullShare R.2) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    iexists _; isplitr; swap; · iexact HS1
    ipureintro; rfl

end Cert.Kernel.Hand

end
-- ==== Proof.KernelRunC.lean ====
/-
  The body at point 50: the accumulated spectrum is filtered, gated and taken through the output matrix, stored
  back into the accumulator scratch, and the first output block is written from the cache's first rows, the basis
  block and that stored matrix. The cache is only read.
-/
import proofs.«150664_g34772055229035_cont_8to1_b_1465_6_alg».proof.Proof.KernelRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : ¬cond1 i) (hc2 : cond2 i) (hc3 : cond3 i)
    (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (xs0 : Vec F S32x128 .f32) (xc : Vec F S100000x128 .f32) :
    { R : List (View.Piece (Elt F) S2000x128 .f32) × List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f R.1) ∗ (∃ f, arg10.view.loc (c : Thread nD τ) ↦[arg10.view.set]{fullShare} arg10.view.writes (Elt F) f R.2) ∗ owns (c : Thread nD τ) arg11 fullShare xc) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [HS0]
    · iexists _; iexact HS0
    iexists _; isplitr; · ipureintro; exact harg11.read_unread _
    iexact HS1

end Cert.Kernel.Hand

end
-- ==== Proof.KernelRunD.lean ====
/-
  The body at a point above 50: an output block is written from the cache's rows of that block, the basis block
  and the matrix the accumulator scratch holds. Both scratch buffers are only read.
-/
import proofs.«150664_g34772055229035_cont_8to1_b_1465_6_alg».proof.Proof.KernelRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runD (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : ¬cond1 i) (hc2 : ¬cond2 i) (hc3 : cond3 i)
    (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (xs0 : Vec F S32x128 .f32) (xc : Vec F S100000x128 .f32) :
    { R : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f R) ∗ owns (c : Thread nD τ) arg10 fullShare xs0 ∗ owns (c : Thread nD τ) arg11 fullShare xc) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [HS0]
    · iexists _; isplitr; · ipureintro; exact harg10.read_unread _
      iexact HS0
    iexists _; isplitr; · ipureintro; exact harg11.read_unread _
    iexact HS1

end Cert.Kernel.Hand

end
-- ==== Proof.KernelBlockDefs.lean ====
/-
  What the body finds in its input windows at a point, read off the argument arrays.

  The basis window's block at point t is rows 2000 (t mod 50), …, 2000 (t mod 50) + 1999 of the basis array; the
  features window's block at a point t below 50 is rows 2000 t, …, 2000 t + 1999 of the features array; the five
  small operands are staged whole: the eigenvalues as a column [32, 1], the two biases as rows [1, 128] (each a
  reshape of its argument made before the region), the two matrices as they are.
-/
import proofs.«150664_g34772055229035_cont_8to1_b_1465_6_alg».proof.Proof.Gen.Kernel.Frame
import Idealize.ShloMosaic.Lib.ValueIdx
import Idealize.ShloMosaic.Lib.Pipeline.Value
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The blocks and the arrays at their literal types -/

abbrev evBlk (c : Dev nD) (t : Fin cfg0.N) : Vec F S2000x32 .f32 := iblk m c 0 t
abbrev xBlk (c : Dev nD) (t : Fin cfg0.N) : Vec F S2000x128 .f32 := iblk m c 1 t
abbrev lamBlk (c : Dev nD) (t : Fin cfg0.N) : Vec F S32x1 .f32 := iblk m c 2 t
abbrev wfBlk (c : Dev nD) (t : Fin cfg0.N) : Vec F S128x128 .f32 := iblk m c 3 t
abbrev bfBlk (c : Dev nD) (t : Fin cfg0.N) : Vec F S1x128 .f32 := iblk m c 4 t
abbrev woBlk (c : Dev nD) (t : Fin cfg0.N) : Vec F S128x128 .f32 := iblk m c 5 t
abbrev boBlk (c : Dev nD) (t : Fin cfg0.N) : Vec F S1x128 .f32 := iblk m c 6 t

abbrev xArr (c : Dev nD) : Vec F S100000x128 .f32 := m ((c.tc : Thread nD τ).loc main_arg0)
abbrev evArr (c : Dev nD) : Vec F S100000x32 .f32 := m ((c.tc : Thread nD τ).loc main_arg1)
abbrev lamArr (c : Dev nD) : Vec F S32 .f32 := m ((c.tc : Thread nD τ).loc main_arg2)
abbrev wfArr (c : Dev nD) : Vec F S128x128 .f32 := m ((c.tc : Thread nD τ).loc main_arg3)
abbrev bfArr (c : Dev nD) : Vec F S128 .f32 := m ((c.tc : Thread nD τ).loc main_arg4)
abbrev woArr (c : Dev nD) : Vec F S128x128 .f32 := m ((c.tc : Thread nD τ).loc main_arg5)
abbrev boArr (c : Dev nD) : Vec F S128 .f32 := m ((c.tc : Thread nD τ).loc main_arg6)

end Cert.Kernel.Hand

end
-- ==== Proof.KernelAcc.lean ====
/-
  What the kernel carries from point to point, and what it writes out.

  The accumulator scratch after point n: after point 0 the first block's product over a zero block; after a point
  below 50, the previous contents plus that point's block product; after point 50, the previous contents filtered,
  gated and taken through the output matrix; after a later point, unchanged.
  The output block at a point t from 50 on: rows 2000 (t - 50), … of the features (read from the cache), plus the
  point's basis block times what the accumulator then holds, plus the output bias.
-/
import proofs.«150664_g34772055229035_cont_8to1_b_1465_6_alg».proof.Proof.KernelBlockDefs
import proofs.«150664_g34772055229035_cont_8to1_b_1465_6_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- Rows 2000 b, …, 2000 b + 1999 of an array of 100000 rows, as a block. -/
def rowsOf (xc : Vec F S100000x128 .f32) (b : Fin 50) : Vec F S2000x128 .f32 :=
  fun y => xc (ix2 (⟨2000 * b.val + (y 0).val, by have h0 : (y 0).val < 2000 := (y 0).isLt; have := b.isLt; omega⟩ : Fin 100000)
    (⟨(y 1).val, (y 1).isLt⟩ : Fin 128))

theorem rowsOf_apply (xc : Vec F S100000x128 .f32) (b : Fin 50) (a : Fin 2000) (j : Fin 128) :
    rowsOf xc b (ix2 a j) = xc (ix2 (⟨2000 * b.val + a.val, by have := a.isLt; have := b.isLt; omega⟩ : Fin 100000) j) := rfl

/-- The accumulator scratch after point `n`. -/
def accAt (c : Dev nD) : (n : ℕ) → n < cfg0.N → Vec F S32x128 .f32
  | 0, hn => k0_pay2 (evBlk m c ⟨0, hn⟩) (xBlk m c ⟨0, hn⟩) (k0_pay1 (F := F))
  | n + 1, hn =>
    if n + 1 < 50 then
      k0_pay2 (evBlk m c ⟨n + 1, hn⟩) (xBlk m c ⟨n + 1, hn⟩) (accAt c n (Nat.lt_of_succ_lt hn))
    else if n + 1 = 50 then
      k0_pay4 (accAt c n (Nat.lt_of_succ_lt hn)) (lamBlk m c ⟨n + 1, hn⟩) (wfBlk m c ⟨n + 1, hn⟩) (bfBlk m c ⟨n + 1, hn⟩) (woBlk m c ⟨n + 1, hn⟩)
    else accAt c n (Nat.lt_of_succ_lt hn)

theorem accAt_first (c : Dev nD) (t : Fin cfg0.N) (h : t.val = 0) :
    accAt m c t.val t.isLt = k0_pay2 (evBlk m c t) (xBlk m c t) (k0_pay1 (F := F)) := by
  obtain ⟨n, hn⟩ := t
  cases n with
  | zero => rfl
  | succ n => exact absurd h (Nat.succ_ne_zero n)

theorem accAt_acc (c : Dev nD) (t : Fin cfg0.N) (h0 : t.val ≠ 0) (h : t.val < 50) :
    accAt m c t.val t.isLt
      = k0_pay2 (evBlk m c t) (xBlk m c t) (accAt m c (t.val - 1) (Nat.lt_of_le_of_lt (Nat.sub_le _ _) t.isLt)) := by
  obtain ⟨n, hn⟩ := t
  cases n with
  | zero => exact absurd rfl h0
  | succ n => exact if_pos h

theorem accAt_gate (c : Dev nD) (t : Fin cfg0.N) (h : t.val = 50) :
    accAt m c t.val t.isLt
      = k0_pay4 (accAt m c (t.val - 1) (Nat.lt_of_le_of_lt (Nat.sub_le _ _) t.isLt)) (lamBlk m c t) (wfBlk m c t) (bfBlk m c t) (woBlk m c t) := by
  obtain ⟨n, hn⟩ := t
  cases n with
  | zero => exact absurd h (by dsimp only; omega)
  | succ n => exact (if_neg (by dsimp only at h; omega)).trans (if_pos h)

theorem accAt_keep (c : Dev nD) (t : Fin cfg0.N) (h : 50 < t.val) :
    accAt m c t.val t.isLt = accAt m c (t.val - 1) (Nat.lt_of_le_of_lt (Nat.sub_le _ _) t.isLt) := by
  obtain ⟨n, hn⟩ := t
  cases n with
  | zero => exact absurd h (by dsimp only; omega)
  | succ n => exact (if_neg (by dsimp only at h; omega)).trans (if_neg (by dsimp only at h; omega))

/-- The output block at point `t` (meaningful from point 50 on). -/
def outAt (c : Dev nD) (t : Fin cfg0.N) : Vec F S2000x128 .f32 :=
  k0_pay5 (rowsOf (xArr m c) ⟨(t.val - 50) % 50, Nat.mod_lt _ (by norm_num)⟩) (evBlk m c t) (accAt m c t.val t.isLt) (boBlk m c t)

end Cert.Kernel.Hand

end
-- ==== Proof.KernelLeaves.lean ====
/-
  What each case of the body leaves, as values.

  The runs find what the body's stores leave in the accumulator scratch and in the output buffer as lists of
  pieces, newest first; every such store goes through the whole buffer, so the newest piece's payload is what
  the buffer holds, and a load through the whole buffer of contents `x` is `x`. The cache is stored into one
  block of 2000 rows at a time: inside those rows it holds the block just stored, outside them what it held.
  The output block's payload reads the cache through a block of rows: that load is those rows of the cache.
-/
import proofs.«150664_g34772055229035_cont_8to1_b_1465_6_alg».proof.Proof.KernelRunD
import proofs.«150664_g34772055229035_cont_8to1_b_1465_6_alg».proof.Proof.KernelAcc
import Idealize.ShloMosaic.Lib.Pipeline.Value
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz2 : (![0, 0] : Fin 2 → ℕ) = fun _ => 0 := by funext a; match a with | ⟨0, _⟩ => rfl | ⟨1, _⟩ => rfl

/-- A store through the whole buffer, newest in the list, leaves its payload. -/
theorem read_writes_cons_whole {sg : RefSig} {κ : Kind} {sp : Space} {S : Shape} {e : EltTy} {Val : EltTy → Type}
    (v : View sg κ sp S e) (f : v.ty.Contents Val) {off : Fin S.rank → ℕ} (hz : off = fun _ => 0)
    (inb : ∀ a, off a + S.size a ≤ S.size a) (w : (Rect.unit off S.size inb).shape.Idx → Val e) (L : List (View.Piece Val S e)) :
    v.read Val (v.writes Val f ((⟨Rect.unit off S.size inb, w⟩ : View.Piece Val S e) :: L)) = w := by
  funext y
  exact View.read_writes_cons_unit_of_mem v f inb w L y y hz (fun a => (Nat.zero_add _).symm)

/-- A load of rows `o, …, o + 1999` of the cache at contents `xc`. -/
theorem readAt_rows (arg11 : Memref sig .tc .vmem S100000x128 .f32) (harg11 : arg11.IsWhole) (xc : Vec F S100000x128 .f32)
    (off : Fin 2 → ℕ) (inb : ∀ a, off a + S2000x128.size a ≤ S100000x128.size a) (b : Fin 50) (ho : off = ![2000 * b.val, 0]) :
    View.readAt (Elt F) arg11.view (Rect.unit (s := S100000x128) off S2000x128.size inb).toLoadRect (harg11.unread xc) = rowsOf xc b := by
  subst ho
  funext y
  rw [View.readAt_apply]
  refine (congrFun (harg11.read_unread xc) _).trans ?_
  unfold rowsOf
  refine congrArg xc (funext fun a => Fin.ext ?_)
  match a with
  | ⟨0, _⟩ => show 2000 * b.val + 1 * (y 0).val = 2000 * b.val + (y 0).val; omega
  | ⟨1, _⟩ => show 0 + 1 * (y 1).val = (y 1).val; omega

/-! ## Point 0 -/

theorem runA_acc (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : cond0 i) (hc1 : cond1 i) (hc2 : ¬cond2 i) (hc3 : ¬cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xc : Vec F S100000x128 .f32) (f : arg10.view.ty.Contents (Elt F)) :
    arg10.view.read (Elt F) (arg10.view.writes (Elt F) f (runA c i arg2 harg2 arg3 harg3 arg4 harg4 arg5 harg5 arg6 harg6 arg7 harg7 arg8 harg8 arg9 harg9 arg10 harg10 arg11 harg11 hc0 hc1 hc2 hc3 x0 x1 x2 x3 x4 x5 x6 x7 xc).1.1) = k0_pay2 x0 x1 (k0_pay1 (F := F)) := by
  unfold runA
  dsimp only
  sl_unfold_words
  refine (read_writes_cons_whole (S := S32x128) arg10.view f hz2 _ _ _).trans ?_
  simp only [View.readAt_eq_ld, harg2.read_unread, harg3.read_unread, harg4.read_unread, harg5.read_unread, harg6.read_unread, harg7.read_unread, harg8.read_unread, harg10.read_unread,
    View.ld_unit_zero (S := S2000x32) hz2, View.ld_unit_zero (S := S2000x128) hz2, View.ld_unit_zero (S := S32x1) hz2, View.ld_unit_zero (S := S128x128) hz2, View.ld_unit_zero (S := S1x128) hz2, View.ld_unit_zero (S := S32x128) hz2,
    View.readCov_unit_zero (S := S32x128) _ hz2]

/-- Inside the block's rows the cache holds the block's feature rows. -/
theorem runA_cache_in (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : cond0 i) (hc1 : cond1 i) (hc2 : ¬cond2 i) (hc3 : ¬cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xc : Vec F S100000x128 .f32) (o : ℕ) (ho : k0_off1 i = ![o, 0]) (hlt : o + 2000 ≤ 100000) (a : Fin 2000) (j : Fin 128) :
    (runA c i arg2 harg2 arg3 harg3 arg4 harg4 arg5 harg5 arg6 harg6 arg7 harg7 arg8 harg8 arg9 harg9 arg10 harg10 arg11 harg11 hc0 hc1 hc2 hc3 x0 x1 x2 x3 x4 x5 x6 x7 xc).1.2 (ix2 (⟨o + a.val, by have := a.isLt; omega⟩ : Fin 100000) j) = x1 (ix2 a j) := by
  unfold runA
  dsimp only
  refine (View.read_writes_cons_rows_of_mem arg11.view (harg11.unread xc) _ _ [] _ (ix2 a j) ho rfl rfl).trans ?_
  simp only [k0_pay3, shapeCast_self, View.readAt_eq_ld, harg3.read_unread, View.ld_unit_zero (S := S2000x128) hz2]

/-- Outside them it holds what it held. -/
theorem runA_cache_out (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : cond0 i) (hc1 : cond1 i) (hc2 : ¬cond2 i) (hc3 : ¬cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xc : Vec F S100000x128 .f32) (o : ℕ) (ho : k0_off1 i = ![o, 0]) (r : Fin 100000) (j : Fin 128)
    (hr : r.val < o ∨ o + 2000 ≤ r.val) :
    (runA c i arg2 harg2 arg3 harg3 arg4 harg4 arg5 harg5 arg6 harg6 arg7 harg7 arg8 harg8 arg9 harg9 arg10 harg10 arg11 harg11 hc0 hc1 hc2 hc3 x0 x1 x2 x3 x4 x5 x6 x7 xc).1.2 (ix2 r j) = xc (ix2 r j) := by
  unfold runA
  dsimp only
  refine (View.read_writes_cons_rows_of_not_mem arg11.view (harg11.unread xc) _ _ [] (ix2 r j) ho rfl hr).trans ?_
  rw [View.writes_nil, harg11.read_unread]

/-! ## A point between 0 and 50 -/

theorem runB_acc (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : cond1 i) (hc2 : ¬cond2 i) (hc3 : ¬cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xs0 : Vec F S32x128 .f32) (xc : Vec F S100000x128 .f32) (f : arg10.view.ty.Contents (Elt F)) :
    arg10.view.read (Elt F) (arg10.view.writes (Elt F) f (runB c i arg2 harg2 arg3 harg3 arg4 harg4 arg5 harg5 arg6 harg6 arg7 harg7 arg8 harg8 arg9 harg9 arg10 harg10 arg11 harg11 hc0 hc1 hc2 hc3 x0 x1 x2 x3 x4 x5 x6 x7 xs0 xc).1.1) = k0_pay2 x0 x1 xs0 := by
  unfold runB
  dsimp only
  sl_unfold_words
  refine (read_writes_cons_whole (S := S32x128) arg10.view f hz2 _ _ _).trans ?_
  simp only [View.readAt_eq_ld, harg2.read_unread, harg3.read_unread, harg4.read_unread, harg5.read_unread, harg6.read_unread, harg7.read_unread, harg8.read_unread, harg10.read_unread,
    View.ld_unit_zero (S := S2000x32) hz2, View.ld_unit_zero (S := S2000x128) hz2, View.ld_unit_zero (S := S32x1) hz2, View.ld_unit_zero (S := S128x128) hz2, View.ld_unit_zero (S := S1x128) hz2, View.ld_unit_zero (S := S32x128) hz2,
    View.readCov_unit_zero (S := S32x128) _ hz2]

/-- Inside the block's rows the cache holds the block's feature rows. -/
theorem runB_cache_in (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : cond1 i) (hc2 : ¬cond2 i) (hc3 : ¬cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xs0 : Vec F S32x128 .f32) (xc : Vec F S100000x128 .f32) (o : ℕ) (ho : k0_off1 i = ![o, 0]) (hlt : o + 2000 ≤ 100000) (a : Fin 2000) (j : Fin 128) :
    (runB c i arg2 harg2 arg3 harg3 arg4 harg4 arg5 harg5 arg6 harg6 arg7 harg7 arg8 harg8 arg9 harg9 arg10 harg10 arg11 harg11 hc0 hc1 hc2 hc3 x0 x1 x2 x3 x4 x5 x6 x7 xs0 xc).1.2 (ix2 (⟨o + a.val, by have := a.isLt; omega⟩ : Fin 100000) j) = x1 (ix2 a j) := by
  unfold runB
  dsimp only
  refine (View.read_writes_cons_rows_of_mem arg11.view (harg11.unread xc) _ _ [] _ (ix2 a j) ho rfl rfl).trans ?_
  simp only [k0_pay3, shapeCast_self, View.readAt_eq_ld, harg3.read_unread, View.ld_unit_zero (S := S2000x128) hz2]

/-- Outside them it holds what it held. -/
theorem runB_cache_out (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : cond1 i) (hc2 : ¬cond2 i) (hc3 : ¬cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xs0 : Vec F S32x128 .f32) (xc : Vec F S100000x128 .f32) (o : ℕ) (ho : k0_off1 i = ![o, 0]) (r : Fin 100000) (j : Fin 128)
    (hr : r.val < o ∨ o + 2000 ≤ r.val) :
    (runB c i arg2 harg2 arg3 harg3 arg4 harg4 arg5 harg5 arg6 harg6 arg7 harg7 arg8 harg8 arg9 harg9 arg10 harg10 arg11 harg11 hc0 hc1 hc2 hc3 x0 x1 x2 x3 x4 x5 x6 x7 xs0 xc).1.2 (ix2 r j) = xc (ix2 r j) := by
  unfold runB
  dsimp only
  refine (View.read_writes_cons_rows_of_not_mem arg11.view (harg11.unread xc) _ _ [] (ix2 r j) ho rfl hr).trans ?_
  rw [View.writes_nil, harg11.read_unread]

/-! ## Point 50 -/

theorem runC_acc (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : ¬cond1 i) (hc2 : cond2 i) (hc3 : cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (xs0 : Vec F S32x128 .f32) (xc : Vec F S100000x128 .f32) (f : arg10.view.ty.Contents (Elt F)) :
    arg10.view.read (Elt F) (arg10.view.writes (Elt F) f (runC c i arg2 harg2 arg3 harg3 arg4 harg4 arg5 harg5 arg6 harg6 arg7 harg7 arg8 harg8 arg9 harg9 arg10 harg10 arg11 harg11 hc0 hc1 hc2 hc3 x0 x1 x2 x3 x4 x5 x6 xs0 xc).1.2) = k0_pay4 xs0 x2 x3 x4 x5 := by
  unfold runC
  dsimp only
  sl_unfold_words
  refine (read_writes_cons_whole (S := S32x128) arg10.view f hz2 _ _ _).trans ?_
  simp only [View.readAt_eq_ld, harg2.read_unread, harg3.read_unread, harg4.read_unread, harg5.read_unread, harg6.read_unread, harg7.read_unread, harg8.read_unread, harg10.read_unread,
    View.ld_unit_zero (S := S2000x32) hz2, View.ld_unit_zero (S := S2000x128) hz2, View.ld_unit_zero (S := S32x1) hz2, View.ld_unit_zero (S := S128x128) hz2, View.ld_unit_zero (S := S1x128) hz2, View.ld_unit_zero (S := S32x128) hz2,
    View.readCov_unit_zero (S := S32x128) _ hz2]

theorem runC_out (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : ¬cond1 i) (hc2 : cond2 i) (hc3 : cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (xs0 : Vec F S32x128 .f32) (xc : Vec F S100000x128 .f32) (f : arg9.view.ty.Contents (Elt F)) (b : Fin 50) (ho : k0_off2 i = ![2000 * b.val, 0]) :
    arg9.view.read (Elt F) (arg9.view.writes (Elt F) f (runC c i arg2 harg2 arg3 harg3 arg4 harg4 arg5 harg5 arg6 harg6 arg7 harg7 arg8 harg8 arg9 harg9 arg10 harg10 arg11 harg11 hc0 hc1 hc2 hc3 x0 x1 x2 x3 x4 x5 x6 xs0 xc).1.1)
      = k0_pay5 (rowsOf xc b) x0 (k0_pay4 xs0 x2 x3 x4 x5) x6 := by
  unfold runC
  dsimp only
  sl_unfold_words
  refine (read_writes_cons_whole (S := S2000x128) arg9.view f hz2 _ _ _).trans ?_
  simp only [View.readAt_eq_ld, harg2.read_unread, harg3.read_unread, harg4.read_unread, harg5.read_unread, harg6.read_unread, harg7.read_unread, harg8.read_unread, harg10.read_unread,
    View.ld_unit_zero (S := S2000x32) hz2, View.ld_unit_zero (S := S2000x128) hz2, View.ld_unit_zero (S := S32x1) hz2, View.ld_unit_zero (S := S128x128) hz2, View.ld_unit_zero (S := S1x128) hz2, View.ld_unit_zero (S := S32x128) hz2,
    View.readCov_unit_zero (S := S32x128) _ hz2]
  exact congrArg (fun z => k0_pay5 z x0 (k0_pay4 xs0 x2 x3 x4 x5) x6) (readAt_rows arg11 harg11 xc _ _ b ho)

/-! ## A point above 50 -/

theorem runD_out (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : ¬cond1 i) (hc2 : ¬cond2 i) (hc3 : cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (xs0 : Vec F S32x128 .f32) (xc : Vec F S100000x128 .f32) (f : arg9.view.ty.Contents (Elt F)) (b : Fin 50) (ho : k0_off2 i = ![2000 * b.val, 0]) :
    arg9.view.read (Elt F) (arg9.view.writes (Elt F) f (runD c i arg2 harg2 arg3 harg3 arg4 harg4 arg5 harg5 arg6 harg6 arg7 harg7 arg8 harg8 arg9 harg9 arg10 harg10 arg11 harg11 hc0 hc1 hc2 hc3 x0 x1 x2 x3 x4 x5 x6 xs0 xc).1)
      = k0_pay5 (rowsOf xc b) x0 xs0 x6 := by
  unfold runD
  dsimp only
  sl_unfold_words
  refine (read_writes_cons_whole (S := S2000x128) arg9.view f hz2 _ _ _).trans ?_
  simp only [View.readAt_eq_ld, harg2.read_unread, harg3.read_unread, harg4.read_unread, harg5.read_unread, harg6.read_unread, harg7.read_unread, harg8.read_unread, harg10.read_unread,
    View.ld_unit_zero (S := S2000x32) hz2, View.ld_unit_zero (S := S2000x128) hz2, View.ld_unit_zero (S := S32x1) hz2, View.ld_unit_zero (S := S128x128) hz2, View.ld_unit_zero (S := S1x128) hz2, View.ld_unit_zero (S := S32x128) hz2,
    View.readCov_unit_zero (S := S32x128) _ hz2]
  exact congrArg (fun z => k0_pay5 z x0 xs0 x6) (readAt_rows arg11 harg11 xc _ _ b ho)

end Cert.Kernel.Hand

end
-- ==== Proof.KernelBlocks.lean ====
/-
  What the body finds in its input windows at a point, read off the argument arrays.

  The basis window's block at point t is rows 2000 (t mod 50), …, 2000 (t mod 50) + 1999 of the basis array; the
  features window's block at a point t below 50 is rows 2000 t, …, 2000 t + 1999 of the features array; the five
  small operands are staged whole: the eigenvalues as a column [32, 1], the two biases as rows [1, 128] (each a
  reshape of its argument made before the region), the two matrices as they are.
-/
import proofs.«150664_g34772055229035_cont_8to1_b_1465_6_alg».proof.Proof.Gen.Kernel.Frame
import proofs.«150664_g34772055229035_cont_8to1_b_1465_6_alg».proof.Proof.KernelBlockDefs
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The printed index maps, decided over the grid -/

/-- The basis window steps through the fifty row blocks twice (block `t mod 50`), the features window through them
    once, at the first fifty points; both stay on the one column block. -/
theorem idx_facts : ∀ t : Fin cfg0.N,
    win0_0.index t (0 : Fin 2) = t.val % 50 ∧ win0_0.index t (1 : Fin 2) = 0
    ∧ (t.val < 50 → win0_1.index t (0 : Fin 2) = t.val) ∧ win0_1.index t (1 : Fin 2) = 0 :=
  (by decide +kernel : ∀ t : Fin grid0.N, _)

/-- The five small operands' windows stay on their one block. -/
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-! ## Each window's block at an index of the block: its array at the index the block's position names -/

/-- The basis window: row `2000 (t mod 50) + x 0`, column `x 1` of the basis array. -/
theorem iblk0_apply (c : Dev nD) (t : Fin cfg0.N) (x : S2000x32.Idx) (k : S100000x32.Idx)
    (hk0 : (k 0).val = 2000 * (t.val % 50) + (x 0).val) (hk1 : (k 1).val = (x 1).val) :
    (iblk m c 0 t : Vec F S2000x32 .f32) x = (m ((c : Thread nD τ).loc main_arg1) : S100000x32.Idx → Elt F .f32) k := by
  obtain ⟨e0, e1, -, -⟩ := idx_facts t
  unfold iblk
  rw [View.read_apply]
  show V m c main_arg1 _ = m (c.tc.loc main_arg1) _
  rw [V_main_arg1]
  congr 1
  funext a
  apply Fin.ext
  match a with
  | ⟨0, _⟩ => show win0_0.index t 0 * 2000 + 1 * (x 0).val = (k 0).val; rw [e0, hk0]; omega
  | ⟨1, _⟩ => show win0_0.index t 1 * 32 + 1 * (x 1).val = (k 1).val; rw [e1, hk1]; omega

/-- The features window at one of the first fifty points: row `2000 t + x 0`, column `x 1` of the features array. -/
theorem iblk1_apply (c : Dev nD) (t : Fin cfg0.N) (ht : t.val < 50) (x : S2000x128.Idx) (k : S100000x128.Idx)
    (hk0 : (k 0).val = 2000 * t.val + (x 0).val) (hk1 : (k 1).val = (x 1).val) :
    (iblk m c 1 t : Vec F S2000x128 .f32) x = (m ((c : Thread nD τ).loc main_arg0) : S100000x128.Idx → Elt F .f32) k := by
  obtain ⟨-, -, e0, e1⟩ := idx_facts t
  unfold iblk
  rw [View.read_apply]
  show V m c main_arg0 _ = m (c.tc.loc main_arg0) _
  rw [V_main_arg0]
  congr 1
  funext a
  apply Fin.ext
  match a with
  | ⟨0, _⟩ => show win0_1.index t 0 * 2000 + 1 * (x 0).val = (k 0).val; rw [e0 ht, hk0]; omega
  | ⟨1, _⟩ => show win0_1.index t 1 * 128 + 1 * (x 1).val = (k 1).val; rw [e1, hk1]; omega

/-- The output matrix of the filter, staged whole: the block is the array. -/
theorem iblk3_eq (c : Dev nD) (t : Fin cfg0.N) :
    (iblk m c 3 t : Vec F S128x128 .f32) = (m ((c : Thread nD τ).loc main_arg3) : S128x128.Idx → Elt F .f32) := by
  obtain ⟨-, ⟨e0, e1⟩, -, -, -⟩ := idx_whole t
  funext x
  unfold iblk
  rw [View.read_apply]
  show V m c main_arg3 _ = m (c.tc.loc main_arg3) _
  rw [V_main_arg3]
  congr 1
  funext a
  apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- The output matrix, staged whole: the block is the array. -/
theorem iblk5_eq (c : Dev nD) (t : Fin cfg0.N) :
    (iblk m c 5 t : Vec F S128x128 .f32) = (m ((c : Thread nD τ).loc main_arg5) : S128x128.Idx → Elt F .f32) := by
  obtain ⟨-, -, -, ⟨e0, e1⟩, -⟩ := idx_whole t
  funext x
  unfold iblk
  rw [View.read_apply]
  show V m c main_arg5 _ = m (c.tc.loc main_arg5) _
  rw [V_main_arg5]
  congr 1
  funext a
  apply Fin.ext
  match a with
  | ⟨0, _⟩ => show win0_5.index t 0 * 128 + 1 * (x 0).val = (x 0).val; rw [e0]; omega
  | ⟨1, _⟩ => show win0_5.index t 1 * 128 + 1 * (x 1).val = (x 1).val; rw [e1]; omega

/-! ## The three operands a reshape made before the region -/

/-- The eigenvalue column the region finds is the reshape of the eigenvalue argument. -/
theorem V_lam (c : Dev nD) :
    (V m c main_call0_v0 : S32x1.Idx → Elt F .f32)
      = shapeCast S32x1 (m ((c : Thread nD τ).loc main_arg2) : S32.Idx → Elt F .f32) shapeCasts_S32_S32x1 := by
  dsimp only [Gen.V, Gen.hostOps0]
  after_results
  rfl

/-- The filter's bias row the region finds is the reshape of its argument. -/
theorem V_bf (c : Dev nD) :
    (V m c main_call0_v1 : S1x128.Idx → Elt F .f32)
      = shapeCast S1x128 (m ((c : Thread nD τ).loc main_arg4) : S128.Idx → Elt F .f32) shapeCasts_S128_S1x128 := by
  dsimp only [Gen.V, Gen.hostOps0]
  after_results
  rfl

/-- The output's bias row the region finds is the reshape of its argument. -/
theorem V_bo (c : Dev nD) :
    (V m c main_call0_v2 : S1x128.Idx → Elt F .f32)
      = shapeCast S1x128 (m ((c : Thread nD τ).loc main_arg6) : S128.Idx → Elt F .f32) shapeCasts_S128_S1x128 := by
  dsimp only [Gen.V, Gen.hostOps0]
  after_results
  rfl

/-- A [32] array cast to a column [32, 1] reads, at `(k, 0)`, the operand at `k`. -/
theorem shapeCast_col_apply {α : Type} (v : S32.Idx → α) (h : S32.ShapeCasts S32x1) (k : Fin 32) (u : Fin 1) :
    shapeCast S32x1 v h (ix2 k u) = v (ix1 k) :=
  shapeCast_apply v h _ _ (by
    have hu : u.val = 0 := by omega
    rw [Shape.rowMajor_val_two, Shape.rowMajor_val_one]
    show k.val = k.val * 1 + u.val
    rw [hu, Nat.mul_one, Nat.add_zero])

/-- The eigenvalue window's block, staged whole, at `(k, 0)`: the eigenvalue argument at `k`. -/
theorem iblk2_apply (c : Dev nD) (t : Fin cfg0.N) (k : Fin 32) (u : Fin 1) :
    (iblk m c 2 t : Vec F S32x1 .f32) (ix2 k u) = (m ((c : Thread nD τ).loc main_arg2) : S32.Idx → Elt F .f32) (ix1 k) := by
  obtain ⟨⟨e0, e1⟩, -, -, -, -⟩ := idx_whole t
  have hidx : (((cfg0.win 2).blk t).view.emb (ix2 k u) : S32x1.Idx) = ix2 k u := by
    funext a
    apply Fin.ext
    match a with
    | ⟨0, _⟩ => show win0_2.index t 0 * 32 + 1 * k.val = k.val; rw [e0]; omega
    | ⟨1, _⟩ => show win0_2.index t 1 * 1 + 1 * u.val = u.val; rw [e1]; omega
  unfold iblk
  rw [View.read_apply]
  show V m c main_call0_v0 (((cfg0.win 2).blk t).view.emb (ix2 k u)) = _
  rw [hidx]
  exact (congrFun (V_lam m c) (ix2 k u)).trans (shapeCast_col_apply _ _ k u)

/-- The filter's bias window's block, staged whole, at `(0, j)`: the bias argument at `j`. -/
theorem iblk4_apply (c : Dev nD) (t : Fin cfg0.N) (u : Fin 1) (j : Fin 128) :
    (iblk m c 4 t : Vec F S1x128 .f32) (ix2 u j) = (m ((c : Thread nD τ).loc main_arg4) : S128.Idx → Elt F .f32) (ix1 j) := by
  obtain ⟨-, -, ⟨e0, e1⟩, -, -⟩ := idx_whole t
  have hidx : (((cfg0.win 4).blk t).view.emb (ix2 u j) : S1x128.Idx) = ix2 u j := by
    funext a
    apply Fin.ext
    match a with
    | ⟨0, _⟩ => show win0_4.index t 0 * 1 + 1 * u.val = u.val; rw [e0]; omega
    | ⟨1, _⟩ => show win0_4.index t 1 * 128 + 1 * j.val = j.val; rw [e1]; omega
  unfold iblk
  rw [View.read_apply]
  show V m c main_call0_v1 (((cfg0.win 4).blk t).view.emb (ix2 u j)) = _
  rw [hidx]
  exact (congrFun (V_bf m c) (ix2 u j)).trans (shapeCast_a_1a_apply _ _ u j)

/-- The output's bias window's block, staged whole, at `(0, j)`: the bias argument at `j`. -/
theorem iblk6_apply (c : Dev nD) (t : Fin cfg0.N) (u : Fin 1) (j : Fin 128) :
    (iblk m c 6 t : Vec F S1x128 .f32) (ix2 u j) = (m ((c : Thread nD τ).loc main_arg6) : S128.Idx → Elt F .f32) (ix1 j) := by
  obtain ⟨-, -, -, -, ⟨e0, e1⟩⟩ := idx_whole t
  have hidx : (((cfg0.win 6).blk t).view.emb (ix2 u j) : S1x128.Idx) = ix2 u j := by
    funext a
    apply Fin.ext
    match a with
    | ⟨0, _⟩ => show win0_6.index t 0 * 1 + 1 * u.val = u.val; rw [e0]; omega
    | ⟨1, _⟩ => show win0_6.index t 1 * 128 + 1 * j.val = j.val; rw [e1]; omega
  unfold iblk
  rw [View.read_apply]
  show V m c main_call0_v2 (((cfg0.win 6).blk t).view.emb (ix2 u j)) = _
  rw [hidx]
  exact (congrFun (V_bo m c) (ix2 u j)).trans (shapeCast_a_1a_apply _ _ u j)

/-! ## The blocks read off the arrays -/

theorem evBlk_apply (c : Dev nD) (t : Fin cfg0.N) (a : Fin 2000) (k : Fin 32) :
    evBlk m c t (ix2 a k)
      = evArr m c (ix2 (⟨2000 * (t.val % 50) + a.val, by have := a.isLt; have := Nat.mod_lt t.val (show 0 < 50 by norm_num); omega⟩ : Fin 100000) k) :=
  iblk0_apply m c t (ix2 a k) _ rfl rfl

theorem xBlk_apply (c : Dev nD) (t : Fin cfg0.N) (ht : t.val < 50) (a : Fin 2000) (j : Fin 128) :
    xBlk m c t (ix2 a j) = xArr m c (ix2 (⟨2000 * t.val + a.val, by have := a.isLt; omega⟩ : Fin 100000) j) :=
  iblk1_apply m c t ht (ix2 a j) _ rfl rfl

theorem lamBlk_apply (c : Dev nD) (t : Fin cfg0.N) (k : Fin 32) :
    lamBlk m c t (ix2 k (0 : Fin 1)) = lamArr m c (ix1 k) :=
  iblk2_apply m c t k 0

theorem wfBlk_eq (c : Dev nD) (t : Fin cfg0.N) : wfBlk m c t = wfArr m c :=
  iblk3_eq m c t

theorem bfBlk_apply (c : Dev nD) (t : Fin cfg0.N) (j : Fin 128) :
    bfBlk m c t (ix2 (0 : Fin 1) j) = bfArr m c (ix1 j) :=
  iblk4_apply m c t 0 j

theorem woBlk_eq (c : Dev nD) (t : Fin cfg0.N) : woBlk m c t = woArr m c :=
  iblk5_eq m c t

theorem boBlk_apply (c : Dev nD) (t : Fin cfg0.N) (j : Fin 128) :
    boBlk m c t (ix2 (0 : Fin 1) j) = boArr m c (ix1 j) :=
  iblk6_apply m c t 0 j

end Cert.Kernel.Hand

end
-- ==== Proof.KernelData.lean ====
/-
  The proof data of the kernel region, with every window and both scratch buffers named.

  Between points the region keeps: the accumulator scratch at what the point before left (`accAt`), the feature
  cache at SOME contents that agree with the features array on every row the first phase has cached so far
  (`CacheOK`: the cache starts at anything, so only the cached rows are known), and the generator register at
  some state. The proof data name each input window's buffer at its block and the output window's buffer, from
  point 50 on, at `outAt`; below point 50 the output window is idle and keeps what it held.
-/
import proofs.«150664_g34772055229035_cont_8to1_b_1465_6_alg».proof.Proof.KernelLeaves
import proofs.«150664_g34772055229035_cont_8to1_b_1465_6_alg».proof.Proof.KernelBlocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The two row offsets the body computes, in closed form -/

theorem off1_eq : ∀ t : Fin cfg0.N, t.val < 50 → k0_off1 (grid0.coords t) = ![2000 * t.val, 0] :=
  (by decide +kernel : ∀ t : Fin grid0.N, t.val < 50 → k0_off1 (grid0.coords t) = ![2000 * t.val, 0])

theorem off2_eq : ∀ t : Fin cfg0.N, 50 ≤ t.val → k0_off2 (grid0.coords t) = ![2000 * ((t.val - 50) % 50), 0] :=
  (by decide +kernel : ∀ t : Fin grid0.N, 50 ≤ t.val → k0_off2 (grid0.coords t) = ![2000 * ((t.val - 50) % 50), 0])

theorem N_eq : cfg0.N = 100 := N_0

/-! ## The cache: what is known of it after n points -/

/-- The cache agrees with the features array on the rows below `2000 n`. -/
def CacheOK (c : Dev nD) (n : ℕ) (d : Vec F S100000x128 .f32) : Prop :=
  ∀ (r : Fin 100000) (j : Fin 128), r.val < 2000 * n → d (ix2 r j) = xArr m c (ix2 r j)

theorem cacheOK_zero (c : Dev nD) (d : Vec F S100000x128 .f32) : CacheOK m c 0 d := fun r j h => absurd h (by omega)

/-- One more block cached: the new contents hold the point's block on its rows and the old contents elsewhere. -/
theorem cacheOK_step (c : Dev nD) (t : Fin cfg0.N) (ht : t.val < 50) (d d' : Vec F S100000x128 .f32) (h : CacheOK m c t.val d)
    (hin : ∀ (a : Fin 2000) (j : Fin 128), d' (ix2 (⟨2000 * t.val + a.val, by have := a.isLt; omega⟩ : Fin 100000) j) = xBlk m c t (ix2 a j))
    (hout : ∀ (r : Fin 100000) (j : Fin 128), (r.val < 2000 * t.val ∨ 2000 * t.val + 2000 ≤ r.val) → d' (ix2 r j) = d (ix2 r j)) :
    CacheOK m c (t.val + 1) d' := by
  intro r j hr
  by_cases hlo : r.val < 2000 * t.val
  · rw [hout r j (Or.inl hlo)]; exact h r j hlo
  · have e : r = (⟨2000 * t.val + (⟨r.val - 2000 * t.val, by omega⟩ : Fin 2000).val, by have := r.isLt; dsimp only; omega⟩ : Fin 100000) :=
      Fin.ext (by dsimp only; omega)
    rw [e, hin ⟨r.val - 2000 * t.val, by omega⟩ j, xBlk_apply m c t ht]

/-- Once every row is cached nothing more is to be known. -/
theorem cacheOK_full (c : Dev nD) (n n' : ℕ) (hn : 50 ≤ n) (d : Vec F S100000x128 .f32) (h : CacheOK m c n d) : CacheOK m c n' d :=
  fun r j _ => h r j (by have := r.isLt; omega)

theorem cacheOK_rows (c : Dev nD) (n : ℕ) (hn : 50 ≤ n) (d : Vec F S100000x128 .f32) (h : CacheOK m c n d) (b : Fin 50) :
    rowsOf d b = rowsOf (xArr m c) b := by
  funext y
  unfold rowsOf
  exact h _ _ (by have := b.isLt; have h0 : (y 0).val < 2000 := (y 0).isLt; dsimp only; omega)

/-! ## The region's invariant between points -/

def Phi (c : Dev nD) : (n : ℕ) → n ≤ cfg0.N → sProp 𝕄
  | 0, _ => Pipeline.ΦA spec0 c
  | n + 1, hn => iprop(iprop(owns (c : Thread nD τ) accM fullShare (accAt m c n hn) ∗ (∃ d, ⌜CacheOK m c (n + 1) d⌝ ∗ owns (c : Thread nD τ) cacheM fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) accM fullShare (accAt m c n hn) ∗ (∃ d, ⌜CacheOK m c (n + 1) d⌝ ∗ owns (c : Thread nD τ) cacheM fullShare d)) ∗ (∃ r, prngReg c r)) := rfl

theorem Phi_pos (c : Dev nD) (n : ℕ) (h : n ≤ cfg0.N) (hz : n ≠ 0) :
    Phi m c n h = iprop(iprop(owns (c : Thread nD τ) accM fullShare (accAt m c (n - 1) (by omega)) ∗ (∃ d, ⌜CacheOK m c n d⌝ ∗ owns (c : Thread nD τ) cacheM fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem idle7_true (t : Fin cfg0.N) (h : t.val < 50) : cfg0.idle 7 (cfg0.grid.coords t) = true := (idle7 t).mpr h
theorem idle7_false (t : Fin cfg0.N) (h : 50 ≤ t.val) : cfg0.idle 7 (cfg0.grid.coords t) = false :=
  Bool.eq_false_iff.mpr fun hh => absurd ((idle7 t).mp hh) (by omega)
theorem flush7_false (t : Fin cfg0.N) (h : t.val < 50) : (cfg0.win 7).flush t = false :=
  Bool.eq_false_iff.mpr fun hh => absurd ((flush7 t).mp hh) (by omega)

/-- Below point 50 the output window's buffer is handed back as it was found. -/
theorem leaves7_idle (c : Dev nD) (t : Fin cfg0.N) (h : t.val < 50) :
    (dats m 0 c).leavesExact 7 t = iprop(∃ d, owns (c : Thread nD τ) (ms7 t) fullShare ((dats m 0 c).before 7 t d)) :=
  (dats m 0 c).leavesExact_idle 7 t (idle7_true t h) (flush7_false t h)

/-- From point 50 on it is handed back at the output block. -/
theorem leaves7_live (c : Dev nD) (t : Fin cfg0.N) (h : 50 ≤ t.val) :
    (dats m 0 c).leavesExact 7 t = owns (c : Thread nD τ) (ms7 t) fullShare (outAt m c t) := by
  unfold Dat.leavesExact; rw [idle7_false t h, after_7]

end Cert.Kernel.Hand

end
-- ==== Proof.KernelFrame.lean ====
/-
  The frame of the kernel region.

  The body obligation is a case split on the point: point 0, a point between 0 and 50, point 50, a point above
  50, each one run of the body, after which the invariant is put back together: the accumulator at the case's
  value, the cache with one more block known (or, in the second phase, unchanged), the output buffer at the
  output block or, below point 50, as it was found. The launch is the library's frame run with a tracked
  invariant; its post gives every array after the region, the output array as the blocks the points from 50 on
  wrote back.
-/
import proofs.«150664_g34772055229035_cont_8to1_b_1465_6_alg».proof.Proof.KernelData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

set_option maxHeartbeats 4000000 in
/-- Point 0. -/
theorem body_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  rw [leaves7_idle m c t (by omega)]
  rw [Phi_castSucc m c t, Phi_zero m c _ _ h0, PhiA_eq]
  iintro ⟨⟨⟨⟨%ds0, HS0⟩, ⟨%dc, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t) _ _ _ _ _ _ _ _ _ _ _ _ _ _ _ _ _ _ _ _ ((hcond0 t).mpr h0) ((hcond1 t).mpr (by omega)) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) dc).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexact HS1
  iintro ⟨H0, H1, H2, H3, H4, H5, H6, H7, ⟨%es0, HS0⟩, HS1⟩
  isplitl [HS0 HS1 Hg]
  · isplitl [HS0 HS1]
    · isplitl [HS0]
      · unfold owns; iexists _; isplitr
        swap; · iexact HS0
        ipureintro
        rw [accAt_first m c t h0]
        exact runA_acc c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) ((hcond0 t).mpr h0) ((hcond1 t).mpr (by omega)) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) dc es0
      · iexists _; isplitr
        swap; · iexact HS1
        ipureintro
        refine cacheOK_step m c t (by omega) dc _ (h0 ▸ cacheOK_zero m c dc) (fun a j => ?_) (fun r j hr => ?_)
        · exact runA_cache_in c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) ((hcond0 t).mpr h0) ((hcond1 t).mpr (by omega)) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) dc (2000 * t.val) (off1_eq t (by omega)) (by omega) a j
        · exact runA_cache_out c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) ((hcond0 t).mpr h0) ((hcond1 t).mpr (by omega)) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) dc (2000 * t.val) (off1_eq t (by omega)) r j hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

set_option maxHeartbeats 4000000 in
/-- A point strictly between 0 and 50. -/
theorem body_acc (c : Dev nD) (t : Fin cfg0.N) (h0 : t.val ≠ 0) (h1 : t.val < 50) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  rw [leaves7_idle m c t h1]
  rw [Phi_castSucc m c t, Phi_pos m c _ _ h0]
  iintro ⟨⟨⟨HS0, ⟨%dc, %hdc, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t) _ _ _ _ _ _ _ _ _ _ _ _ _ _ _ _ _ _ _ _ (fun h => by have := (hcond0 t).mp h; omega) ((hcond1 t).mpr h1) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) (accAt m c (t.val - 1) (by omega)) dc).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, ⟨%es0, HS0⟩, HS1⟩
  isplitl [HS0 HS1 Hg]
  · isplitl [HS0 HS1]
    · isplitl [HS0]
      · unfold owns; iexists _; isplitr
        swap; · iexact HS0
        ipureintro
        rw [accAt_acc m c t h0 h1]
        exact runB_acc c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) (fun h => by have := (hcond0 t).mp h; omega) ((hcond1 t).mpr h1) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) (accAt m c (t.val - 1) (by omega)) dc es0
      · iexists _; isplitr
        swap; · iexact HS1
        ipureintro
        refine cacheOK_step m c t h1 dc _ hdc (fun a j => ?_) (fun r j hr => ?_)
        · exact runB_cache_in c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) (fun h => by have := (hcond0 t).mp h; omega) ((hcond1 t).mpr h1) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) (accAt m c (t.val - 1) (by omega)) dc (2000 * t.val) (off1_eq t h1) (by omega) a j
        · exact runB_cache_out c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) (fun h => by have := (hcond0 t).mp h; omega) ((hcond1 t).mpr h1) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) (accAt m c (t.val - 1) (by omega)) dc (2000 * t.val) (off1_eq t h1) r j hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

set_option maxHeartbeats 4000000 in
/-- Point 50. -/
theorem body_gate (c : Dev nD) (t : Fin cfg0.N) (h2 : t.val = 50) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  rw [leaves7_live m c t (by omega)]
  rw [Phi_castSucc m c t, Phi_pos m c _ _ (by omega)]
  iintro ⟨⟨⟨HS0, ⟨%dc, %hdc, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c (grid0.coords t) _ _ _ _ _ _ _ _ _ _ _ _ _ _ _ _ _ _ _ _ (fun h => by have := (hcond0 t).mp h; omega) (fun h => by have := (hcond1 t).mp h; omega) ((hcond2 t).mpr h2) ((hcond3 t).mpr (by omega)) (evBlk m c t) (xBlk m c t) (lamBlk m c t) (wfBlk m c t) (bfBlk m c t) (woBlk m c t) (boBlk m c t) (accAt m c (t.val - 1) (by omega)) dc).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, ⟨%es0, HS0⟩, HS1⟩
  isplitl [HS0 HS1 Hg]
  · isplitl [HS0 HS1]
    · isplitl [HS0]
      · unfold owns; iexists _; isplitr
        swap; · iexact HS0
        ipureintro
        rw [accAt_gate m c t h2]
        exact runC_acc c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) (fun h => by have := (hcond0 t).mp h; omega) (fun h => by have := (hcond1 t).mp h; omega) ((hcond2 t).mpr h2) ((hcond3 t).mpr (by omega)) (evBlk m c t) (xBlk m c t) (lamBlk m c t) (wfBlk m c t) (bfBlk m c t) (woBlk m c t) (boBlk m c t) (accAt m c (t.val - 1) (by omega)) dc es0
      · iexists dc; isplitr
        · ipureintro; exact cacheOK_full m c t.val (t.val + 1) (by omega) dc hdc
        iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  unfold outAt
  rw [accAt_gate m c t h2, ← cacheOK_rows m c t.val (by omega) dc hdc]
  exact runC_out c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) (fun h => by have := (hcond0 t).mp h; omega) (fun h => by have := (hcond1 t).mp h; omega) ((hcond2 t).mpr h2) ((hcond3 t).mpr (by omega)) (evBlk m c t) (xBlk m c t) (lamBlk m c t) (wfBlk m c t) (bfBlk m c t) (woBlk m c t) (boBlk m c t) (accAt m c (t.val - 1) (by omega)) dc e7 ⟨(t.val - 50) % 50, Nat.mod_lt _ (by norm_num)⟩ (off2_eq t (by omega))

set_option maxHeartbeats 4000000 in
/-- A point above 50. -/
theorem body_out (c : Dev nD) (t : Fin cfg0.N) (h3 : 50 < t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  rw [leaves7_live m c t (by omega)]
  rw [Phi_castSucc m c t, Phi_pos m c _ _ (by omega)]
  iintro ⟨⟨⟨HS0, ⟨%dc, %hdc, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runD c (grid0.coords t) _ _ _ _ _ _ _ _ _ _ _ _ _ _ _ _ _ _ _ _ (fun h => by have := (hcond0 t).mp h; omega) (fun h => by have := (hcond1 t).mp h; omega) (fun h => by have := (hcond2 t).mp h; omega) ((hcond3 t).mpr (by omega)) (evBlk m c t) (xBlk m c t) (lamBlk m c t) (wfBlk m c t) (bfBlk m c t) (woBlk m c t) (boBlk m c t) (accAt m c (t.val - 1) (by omega)) dc).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, HS0, HS1⟩
  isplitl [HS0 HS1 Hg]
  · isplitl [HS0 HS1]
    · isplitl [HS0]
      · rw [accAt_keep m c t h3]; iexact HS0
      · iexists dc; isplitr
        · ipureintro; exact cacheOK_full m c t.val (t.val + 1) (by omega) dc hdc
        iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  unfold outAt
  rw [accAt_keep m c t h3, ← cacheOK_rows m c t.val (by omega) dc hdc]
  exact runD_out c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) (fun h => by have := (hcond0 t).mp h; omega) (fun h => by have := (hcond1 t).mp h; omega) (fun h => by have := (hcond2 t).mp h; omega) ((hcond3 t).mpr (by omega)) (evBlk m c t) (xBlk m c t) (lamBlk m c t) (wfBlk m c t) (bfBlk m c t) (woBlk m c t) (boBlk m c t) (accAt m c (t.val - 1) (by omega)) dc e7 ⟨(t.val - 50) % 50, Nat.mod_lt _ (by norm_num)⟩ (off2_eq t (by omega))

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact body_first m c t h0
  · by_cases h1 : t.val < 50
    · exact body_acc m c t h0 h1
    · by_cases h2 : t.val = 50
      · exact body_gate m c t h2
      · exact body_out m c t (by omega)

theorem body_obligation (c : Dev nD) : BodyObligation (dats (F := F) m 0 c) (defs₀ (F := F)) Variants.none () Set.univ := fun t => by
  rw [bigSep_W0, bigSep_W0]
  exact sound_body m c t

/-! ## The launch -/

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 100 := N_0; omega), PhiA_eq]
  iintro ⟨⟨HS0, ⟨%dc, -, HS1⟩⟩, Hg⟩
  isplitl [HS0 HS1]
  · isplitl [HS0]
    · iexists _; iexact HS0
    iexists _; iexact HS1
  iexact Hg

set_option backward.isDefEq.respectTransparency.types false in
/-- Every weakly fair execution of @main ends with every array of the region at what the proof data compute and
    every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.KernelIdealRuns.lean ====
/-
  The grid of the one kernel region has 100 points: 50 points of a first phase, then 50 of a second. What the
  body does at a point depends on four conditions of its coordinates, which hold, in point order, at point 0
  only (reset the accumulator), at the points below 50 (accumulate and cache), at point 50 only (gate the
  spectrum and fold the output matrix in) and at the points from 50 on (write an output block). The output
  window is untouched and not written back below point 50, and written back at every point from 50 on.
  Also here: each window's staging buffer at a point, the two scratch buffers, and the region's invariant
  spelled out as those two scratch buffers at some contents and the generator register at some state.
-/
import proofs.«150664_g34772055229035_cont_8to1_b_1465_6_alg».proof.Proof.Gen.KernelIdeal.Frame
import proofs.«150664_g34772055229035_cont_8to1_b_1465_6_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions, decided over the grid -/

abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0 : ∀ t : Fin cfg0.N, cond0 (grid0.coords t) ↔ t.val = 0 :=
  (by decide +kernel : ∀ t : Fin grid0.N, cond0 (grid0.coords t) ↔ t.val = 0)

abbrev cond1 (i : grid0.Coords) : Prop := k0_cond2 i = 1#1
theorem hcond1 : ∀ t : Fin cfg0.N, cond1 (grid0.coords t) ↔ t.val < 50 :=
  (by decide +kernel : ∀ t : Fin grid0.N, cond1 (grid0.coords t) ↔ t.val < 50)

abbrev cond2 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
theorem hcond2 : ∀ t : Fin cfg0.N, cond2 (grid0.coords t) ↔ t.val = 50 :=
  (by decide +kernel : ∀ t : Fin grid0.N, cond2 (grid0.coords t) ↔ t.val = 50)

abbrev cond3 (i : grid0.Coords) : Prop := k0_cond4 i = 1#1
theorem hcond3 : ∀ t : Fin cfg0.N, cond3 (grid0.coords t) ↔ 50 ≤ t.val :=
  (by decide +kernel : ∀ t : Fin grid0.N, cond3 (grid0.coords t) ↔ 50 ≤ t.val)

/-! ## Where the windows are idle, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The output window is idle exactly below point 50. -/
theorem idle7 : ∀ t : Fin cfg0.N, cfg0.idle 7 (grid0.coords t) = true ↔ t.val < 50 :=
  (by decide +kernel : ∀ t : Fin grid0.N, cfg0.idle 7 (grid0.coords t) = true ↔ t.val < 50)
/-- and written back exactly from point 50 on. -/
theorem flush7 : ∀ t : Fin cfg0.N, (cfg0.win 7).flush t = true ↔ 50 ≤ t.val :=
  (by decide +kernel : ∀ t : Fin grid0.N, win0_7.flush t = true ↔ 50 ≤ t.val)

/-! ## The staging buffers at a point, and the scratch buffers -/

abbrev ms0 (t : Fin cfg0.N) : Memref sig .tc .vmem S2000x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2000x128 .f32 := win0_7.stage (cfg0.slots t 7)
abbrev hs7 (t : Fin cfg0.N) : (ms7 t).IsWhole := hstage0_7 ((cfg0.slots t 7).cast nbuf0_7)
/-- The accumulator scratch and the feature cache: whole scoped buffers of the kernel's own. -/
abbrev accM : Memref sig .tc .vmem S32x128 .f32 := Memref.whole cc0_scratch0
abbrev cacheM : Memref sig .tc .vmem S100000x128 .f32 := Memref.whole cc0_scratch1

/-- What the launch hands the region besides the windows: the two scratch buffers at some contents and the
    generator register at some state. -/
theorem PhiA_eq (c : Dev nD) :
    (Pipeline.ΦA spec0 c : sProp 𝕄)
      = iprop(iprop((∃ d, owns (c : Thread nD τ) accM fullShare d) ∗ (∃ d, owns (c : Thread nD τ) cacheM fullShare d)) ∗ (∃ r, prngReg c r)) := by
  unfold Pipeline.ΦA; rw [scopedRest0_eq]; simp only [accM, cacheM, owns_whole]; try rfl

end Cert.KernelIdeal.Hand

end
-- ==== Proof.KernelIdealRunA.lean ====
/-
  The body at point 0, on any whole staging buffers: the accumulator scratch is reset and then holds the first
  block's product, the block's feature rows go into the cache, and the output buffer is not touched. The run finds
  what the accumulator's stores leave (as a list of pieces, newest first) and what the cache holds afterwards.
-/
import proofs.«150664_g34772055229035_cont_8to1_b_1465_6_alg».proof.Proof.KernelIdealRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : cond0 i) (hc1 : cond1 i) (hc2 : ¬cond2 i) (hc3 : ¬cond3 i)
    (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xc : Vec F S100000x128 .f32) :
    { R : List (View.Piece (Elt F) S32x128 .f32) × Vec F S100000x128 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f R.1) ∗ owns (c : Thread nD τ) arg11 fullShare R.2) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    iexists _; isplitr; swap; · iexact HS1
    ipureintro; rfl

end Cert.KernelIdeal.Hand

end
-- ==== Proof.KernelIdealRunB.lean ====
/-
  The body at a point strictly between 0 and 50: the accumulator scratch, found at what the point before left,
  gains this block's product, the block's feature rows go into the cache, and the output buffer is not touched.
-/
import proofs.«150664_g34772055229035_cont_8to1_b_1465_6_alg».proof.Proof.KernelIdealRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : cond1 i) (hc2 : ¬cond2 i) (hc3 : ¬cond3 i)
    (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xs0 : Vec F S32x128 .f32) (xc : Vec F S100000x128 .f32) :
    { R : List (View.Piece (Elt F) S32x128 .f32) × Vec F S100000x128 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs0 ∗ owns (c : Thread nD τ) arg11 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f R.1) ∗ owns (c : Thread nD τ) arg11 fullShare R.2) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    iexists _; isplitr; swap; · iexact HS1
    ipureintro; rfl

end Cert.KernelIdeal.Hand

end
-- ==== Proof.KernelIdealRunC.lean ====
/-
  The body at point 50: the accumulated spectrum is filtered, gated and taken through the output matrix, stored
  back into the accumulator scratch, and the first output block is written from the cache's first rows, the basis
  block and that stored matrix. The cache is only read.
-/
import proofs.«150664_g34772055229035_cont_8to1_b_1465_6_alg».proof.Proof.KernelIdealRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : ¬cond1 i) (hc2 : cond2 i) (hc3 : cond3 i)
    (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (xs0 : Vec F S32x128 .f32) (xc : Vec F S100000x128 .f32) :
    { R : List (View.Piece (Elt F) S2000x128 .f32) × List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f R.1) ∗ (∃ f, arg10.view.loc (c : Thread nD τ) ↦[arg10.view.set]{fullShare} arg10.view.writes (Elt F) f R.2) ∗ owns (c : Thread nD τ) arg11 fullShare xc) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [HS0]
    · iexists _; iexact HS0
    iexists _; isplitr; · ipureintro; exact harg11.read_unread _
    iexact HS1

end Cert.KernelIdeal.Hand

end
-- ==== Proof.KernelIdealRunD.lean ====
/-
  The body at a point above 50: an output block is written from the cache's rows of that block, the basis block
  and the matrix the accumulator scratch holds. Both scratch buffers are only read.
-/
import proofs.«150664_g34772055229035_cont_8to1_b_1465_6_alg».proof.Proof.KernelIdealRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runD (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : ¬cond1 i) (hc2 : ¬cond2 i) (hc3 : cond3 i)
    (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (xs0 : Vec F S32x128 .f32) (xc : Vec F S100000x128 .f32) :
    { R : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f R) ∗ owns (c : Thread nD τ) arg10 fullShare xs0 ∗ owns (c : Thread nD τ) arg11 fullShare xc) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [HS0]
    · iexists _; isplitr; · ipureintro; exact harg10.read_unread _
      iexact HS0
    iexists _; isplitr; · ipureintro; exact harg11.read_unread _
    iexact HS1

end Cert.KernelIdeal.Hand

end
-- ==== Proof.KernelIdealBlockDefs.lean ====
/-
  What the body finds in its input windows at a point, read off the argument arrays.

  The basis window's block at point t is rows 2000 (t mod 50), …, 2000 (t mod 50) + 1999 of the basis array; the
  features window's block at a point t below 50 is rows 2000 t, …, 2000 t + 1999 of the features array; the five
  small operands are staged whole: the eigenvalues as a column [32, 1], the two biases as rows [1, 128] (each a
  reshape of its argument made before the region), the two matrices as they are.
-/
import proofs.«150664_g34772055229035_cont_8to1_b_1465_6_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The blocks and the arrays at their literal types -/

abbrev evBlk (c : Dev nD) (t : Fin cfg0.N) : Vec F S2000x32 .f32 := iblk m c 0 t
abbrev xBlk (c : Dev nD) (t : Fin cfg0.N) : Vec F S2000x128 .f32 := iblk m c 1 t
abbrev lamBlk (c : Dev nD) (t : Fin cfg0.N) : Vec F S32x1 .f32 := iblk m c 2 t
abbrev wfBlk (c : Dev nD) (t : Fin cfg0.N) : Vec F S128x128 .f32 := iblk m c 3 t
abbrev bfBlk (c : Dev nD) (t : Fin cfg0.N) : Vec F S1x128 .f32 := iblk m c 4 t
abbrev woBlk (c : Dev nD) (t : Fin cfg0.N) : Vec F S128x128 .f32 := iblk m c 5 t
abbrev boBlk (c : Dev nD) (t : Fin cfg0.N) : Vec F S1x128 .f32 := iblk m c 6 t

abbrev xArr (c : Dev nD) : Vec F S100000x128 .f32 := m ((c.tc : Thread nD τ).loc main_arg0)
abbrev evArr (c : Dev nD) : Vec F S100000x32 .f32 := m ((c.tc : Thread nD τ).loc main_arg1)
abbrev lamArr (c : Dev nD) : Vec F S32 .f32 := m ((c.tc : Thread nD τ).loc main_arg2)
abbrev wfArr (c : Dev nD) : Vec F S128x128 .f32 := m ((c.tc : Thread nD τ).loc main_arg3)
abbrev bfArr (c : Dev nD) : Vec F S128 .f32 := m ((c.tc : Thread nD τ).loc main_arg4)
abbrev woArr (c : Dev nD) : Vec F S128x128 .f32 := m ((c.tc : Thread nD τ).loc main_arg5)
abbrev boArr (c : Dev nD) : Vec F S128 .f32 := m ((c.tc : Thread nD τ).loc main_arg6)

end Cert.KernelIdeal.Hand

end
-- ==== Proof.KernelIdealAcc.lean ====
/-
  What the kernel carries from point to point, and what it writes out.

  The accumulator scratch after point n: after point 0 the first block's product over a zero block; after a point
  below 50, the previous contents plus that point's block product; after point 50, the previous contents filtered,
  gated and taken through the output matrix; after a later point, unchanged.
  The output block at a point t from 50 on: rows 2000 (t - 50), … of the features (read from the cache), plus the
  point's basis block times what the accumulator then holds, plus the output bias.
-/
import proofs.«150664_g34772055229035_cont_8to1_b_1465_6_alg».proof.Proof.KernelIdealBlockDefs
import proofs.«150664_g34772055229035_cont_8to1_b_1465_6_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- Rows 2000 b, …, 2000 b + 1999 of an array of 100000 rows, as a block. -/
def rowsOf (xc : Vec F S100000x128 .f32) (b : Fin 50) : Vec F S2000x128 .f32 :=
  fun y => xc (ix2 (⟨2000 * b.val + (y 0).val, by have h0 : (y 0).val < 2000 := (y 0).isLt; have := b.isLt; omega⟩ : Fin 100000)
    (⟨(y 1).val, (y 1).isLt⟩ : Fin 128))

theorem rowsOf_apply (xc : Vec F S100000x128 .f32) (b : Fin 50) (a : Fin 2000) (j : Fin 128) :
    rowsOf xc b (ix2 a j) = xc (ix2 (⟨2000 * b.val + a.val, by have := a.isLt; have := b.isLt; omega⟩ : Fin 100000) j) := rfl

/-- The accumulator scratch after point `n`. -/
def accAt (c : Dev nD) : (n : ℕ) → n < cfg0.N → Vec F S32x128 .f32
  | 0, hn => k0_pay2 (evBlk m c ⟨0, hn⟩) (xBlk m c ⟨0, hn⟩) (k0_pay1 (F := F))
  | n + 1, hn =>
    if n + 1 < 50 then
      k0_pay2 (evBlk m c ⟨n + 1, hn⟩) (xBlk m c ⟨n + 1, hn⟩) (accAt c n (Nat.lt_of_succ_lt hn))
    else if n + 1 = 50 then
      k0_pay4 (accAt c n (Nat.lt_of_succ_lt hn)) (lamBlk m c ⟨n + 1, hn⟩) (wfBlk m c ⟨n + 1, hn⟩) (bfBlk m c ⟨n + 1, hn⟩) (woBlk m c ⟨n + 1, hn⟩)
    else accAt c n (Nat.lt_of_succ_lt hn)

theorem accAt_first (c : Dev nD) (t : Fin cfg0.N) (h : t.val = 0) :
    accAt m c t.val t.isLt = k0_pay2 (evBlk m c t) (xBlk m c t) (k0_pay1 (F := F)) := by
  obtain ⟨n, hn⟩ := t
  cases n with
  | zero => rfl
  | succ n => exact absurd h (Nat.succ_ne_zero n)

theorem accAt_acc (c : Dev nD) (t : Fin cfg0.N) (h0 : t.val ≠ 0) (h : t.val < 50) :
    accAt m c t.val t.isLt
      = k0_pay2 (evBlk m c t) (xBlk m c t) (accAt m c (t.val - 1) (Nat.lt_of_le_of_lt (Nat.sub_le _ _) t.isLt)) := by
  obtain ⟨n, hn⟩ := t
  cases n with
  | zero => exact absurd rfl h0
  | succ n => exact if_pos h

theorem accAt_gate (c : Dev nD) (t : Fin cfg0.N) (h : t.val = 50) :
    accAt m c t.val t.isLt
      = k0_pay4 (accAt m c (t.val - 1) (Nat.lt_of_le_of_lt (Nat.sub_le _ _) t.isLt)) (lamBlk m c t) (wfBlk m c t) (bfBlk m c t) (woBlk m c t) := by
  obtain ⟨n, hn⟩ := t
  cases n with
  | zero => exact absurd h (by dsimp only; omega)
  | succ n => exact (if_neg (by dsimp only at h; omega)).trans (if_pos h)

theorem accAt_keep (c : Dev nD) (t : Fin cfg0.N) (h : 50 < t.val) :
    accAt m c t.val t.isLt = accAt m c (t.val - 1) (Nat.lt_of_le_of_lt (Nat.sub_le _ _) t.isLt) := by
  obtain ⟨n, hn⟩ := t
  cases n with
  | zero => exact absurd h (by dsimp only; omega)
  | succ n => exact (if_neg (by dsimp only at h; omega)).trans (if_neg (by dsimp only at h; omega))

/-- The output block at point `t` (meaningful from point 50 on). -/
def outAt (c : Dev nD) (t : Fin cfg0.N) : Vec F S2000x128 .f32 :=
  k0_pay5 (rowsOf (xArr m c) ⟨(t.val - 50) % 50, Nat.mod_lt _ (by norm_num)⟩) (evBlk m c t) (accAt m c t.val t.isLt) (boBlk m c t)

end Cert.KernelIdeal.Hand

end
-- ==== Proof.KernelIdealLeaves.lean ====
/-
  What each case of the body leaves, as values.

  The runs find what the body's stores leave in the accumulator scratch and in the output buffer as lists of
  pieces, newest first; every such store goes through the whole buffer, so the newest piece's payload is what
  the buffer holds, and a load through the whole buffer of contents `x` is `x`. The cache is stored into one
  block of 2000 rows at a time: inside those rows it holds the block just stored, outside them what it held.
  The output block's payload reads the cache through a block of rows: that load is those rows of the cache.
-/
import proofs.«150664_g34772055229035_cont_8to1_b_1465_6_alg».proof.Proof.KernelIdealRunD
import proofs.«150664_g34772055229035_cont_8to1_b_1465_6_alg».proof.Proof.KernelIdealAcc
import Idealize.ShloMosaic.Lib.Pipeline.Value
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz2 : (![0, 0] : Fin 2 → ℕ) = fun _ => 0 := by funext a; match a with | ⟨0, _⟩ => rfl | ⟨1, _⟩ => rfl

/-- A store through the whole buffer, newest in the list, leaves its payload. -/
theorem read_writes_cons_whole {sg : RefSig} {κ : Kind} {sp : Space} {S : Shape} {e : EltTy} {Val : EltTy → Type}
    (v : View sg κ sp S e) (f : v.ty.Contents Val) {off : Fin S.rank → ℕ} (hz : off = fun _ => 0)
    (inb : ∀ a, off a + S.size a ≤ S.size a) (w : (Rect.unit off S.size inb).shape.Idx → Val e) (L : List (View.Piece Val S e)) :
    v.read Val (v.writes Val f ((⟨Rect.unit off S.size inb, w⟩ : View.Piece Val S e) :: L)) = w := by
  funext y
  exact View.read_writes_cons_unit_of_mem v f inb w L y y hz (fun a => (Nat.zero_add _).symm)

/-- A load of rows `o, …, o + 1999` of the cache at contents `xc`. -/
theorem readAt_rows (arg11 : Memref sig .tc .vmem S100000x128 .f32) (harg11 : arg11.IsWhole) (xc : Vec F S100000x128 .f32)
    (off : Fin 2 → ℕ) (inb : ∀ a, off a + S2000x128.size a ≤ S100000x128.size a) (b : Fin 50) (ho : off = ![2000 * b.val, 0]) :
    View.readAt (Elt F) arg11.view (Rect.unit (s := S100000x128) off S2000x128.size inb).toLoadRect (harg11.unread xc) = rowsOf xc b := by
  subst ho
  funext y
  rw [View.readAt_apply]
  refine (congrFun (harg11.read_unread xc) _).trans ?_
  unfold rowsOf
  refine congrArg xc (funext fun a => Fin.ext ?_)
  match a with
  | ⟨0, _⟩ => show 2000 * b.val + 1 * (y 0).val = 2000 * b.val + (y 0).val; omega
  | ⟨1, _⟩ => show 0 + 1 * (y 1).val = (y 1).val; omega

/-! ## Point 0 -/

theorem runA_acc (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : cond0 i) (hc1 : cond1 i) (hc2 : ¬cond2 i) (hc3 : ¬cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xc : Vec F S100000x128 .f32) (f : arg10.view.ty.Contents (Elt F)) :
    arg10.view.read (Elt F) (arg10.view.writes (Elt F) f (runA c i arg2 harg2 arg3 harg3 arg4 harg4 arg5 harg5 arg6 harg6 arg7 harg7 arg8 harg8 arg9 harg9 arg10 harg10 arg11 harg11 hc0 hc1 hc2 hc3 x0 x1 x2 x3 x4 x5 x6 x7 xc).1.1) = k0_pay2 x0 x1 (k0_pay1 (F := F)) := by
  unfold runA
  dsimp only
  sl_unfold_words
  refine (read_writes_cons_whole (S := S32x128) arg10.view f hz2 _ _ _).trans ?_
  simp only [View.readAt_eq_ld, harg2.read_unread, harg3.read_unread, harg4.read_unread, harg5.read_unread, harg6.read_unread, harg7.read_unread, harg8.read_unread, harg10.read_unread,
    View.ld_unit_zero (S := S2000x32) hz2, View.ld_unit_zero (S := S2000x128) hz2, View.ld_unit_zero (S := S32x1) hz2, View.ld_unit_zero (S := S128x128) hz2, View.ld_unit_zero (S := S1x128) hz2, View.ld_unit_zero (S := S32x128) hz2,
    View.readCov_unit_zero (S := S32x128) _ hz2]

/-- Inside the block's rows the cache holds the block's feature rows. -/
theorem runA_cache_in (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : cond0 i) (hc1 : cond1 i) (hc2 : ¬cond2 i) (hc3 : ¬cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xc : Vec F S100000x128 .f32) (o : ℕ) (ho : k0_off1 i = ![o, 0]) (hlt : o + 2000 ≤ 100000) (a : Fin 2000) (j : Fin 128) :
    (runA c i arg2 harg2 arg3 harg3 arg4 harg4 arg5 harg5 arg6 harg6 arg7 harg7 arg8 harg8 arg9 harg9 arg10 harg10 arg11 harg11 hc0 hc1 hc2 hc3 x0 x1 x2 x3 x4 x5 x6 x7 xc).1.2 (ix2 (⟨o + a.val, by have := a.isLt; omega⟩ : Fin 100000) j) = x1 (ix2 a j) := by
  unfold runA
  dsimp only
  refine (View.read_writes_cons_rows_of_mem arg11.view (harg11.unread xc) _ _ [] _ (ix2 a j) ho rfl rfl).trans ?_
  simp only [k0_pay3, shapeCast_self, View.readAt_eq_ld, harg3.read_unread, View.ld_unit_zero (S := S2000x128) hz2]

/-- Outside them it holds what it held. -/
theorem runA_cache_out (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : cond0 i) (hc1 : cond1 i) (hc2 : ¬cond2 i) (hc3 : ¬cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xc : Vec F S100000x128 .f32) (o : ℕ) (ho : k0_off1 i = ![o, 0]) (r : Fin 100000) (j : Fin 128)
    (hr : r.val < o ∨ o + 2000 ≤ r.val) :
    (runA c i arg2 harg2 arg3 harg3 arg4 harg4 arg5 harg5 arg6 harg6 arg7 harg7 arg8 harg8 arg9 harg9 arg10 harg10 arg11 harg11 hc0 hc1 hc2 hc3 x0 x1 x2 x3 x4 x5 x6 x7 xc).1.2 (ix2 r j) = xc (ix2 r j) := by
  unfold runA
  dsimp only
  refine (View.read_writes_cons_rows_of_not_mem arg11.view (harg11.unread xc) _ _ [] (ix2 r j) ho rfl hr).trans ?_
  rw [View.writes_nil, harg11.read_unread]

/-! ## A point between 0 and 50 -/

theorem runB_acc (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : cond1 i) (hc2 : ¬cond2 i) (hc3 : ¬cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xs0 : Vec F S32x128 .f32) (xc : Vec F S100000x128 .f32) (f : arg10.view.ty.Contents (Elt F)) :
    arg10.view.read (Elt F) (arg10.view.writes (Elt F) f (runB c i arg2 harg2 arg3 harg3 arg4 harg4 arg5 harg5 arg6 harg6 arg7 harg7 arg8 harg8 arg9 harg9 arg10 harg10 arg11 harg11 hc0 hc1 hc2 hc3 x0 x1 x2 x3 x4 x5 x6 x7 xs0 xc).1.1) = k0_pay2 x0 x1 xs0 := by
  unfold runB
  dsimp only
  sl_unfold_words
  refine (read_writes_cons_whole (S := S32x128) arg10.view f hz2 _ _ _).trans ?_
  simp only [View.readAt_eq_ld, harg2.read_unread, harg3.read_unread, harg4.read_unread, harg5.read_unread, harg6.read_unread, harg7.read_unread, harg8.read_unread, harg10.read_unread,
    View.ld_unit_zero (S := S2000x32) hz2, View.ld_unit_zero (S := S2000x128) hz2, View.ld_unit_zero (S := S32x1) hz2, View.ld_unit_zero (S := S128x128) hz2, View.ld_unit_zero (S := S1x128) hz2, View.ld_unit_zero (S := S32x128) hz2,
    View.readCov_unit_zero (S := S32x128) _ hz2]

/-- Inside the block's rows the cache holds the block's feature rows. -/
theorem runB_cache_in (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : cond1 i) (hc2 : ¬cond2 i) (hc3 : ¬cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xs0 : Vec F S32x128 .f32) (xc : Vec F S100000x128 .f32) (o : ℕ) (ho : k0_off1 i = ![o, 0]) (hlt : o + 2000 ≤ 100000) (a : Fin 2000) (j : Fin 128) :
    (runB c i arg2 harg2 arg3 harg3 arg4 harg4 arg5 harg5 arg6 harg6 arg7 harg7 arg8 harg8 arg9 harg9 arg10 harg10 arg11 harg11 hc0 hc1 hc2 hc3 x0 x1 x2 x3 x4 x5 x6 x7 xs0 xc).1.2 (ix2 (⟨o + a.val, by have := a.isLt; omega⟩ : Fin 100000) j) = x1 (ix2 a j) := by
  unfold runB
  dsimp only
  refine (View.read_writes_cons_rows_of_mem arg11.view (harg11.unread xc) _ _ [] _ (ix2 a j) ho rfl rfl).trans ?_
  simp only [k0_pay3, shapeCast_self, View.readAt_eq_ld, harg3.read_unread, View.ld_unit_zero (S := S2000x128) hz2]

/-- Outside them it holds what it held. -/
theorem runB_cache_out (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : cond1 i) (hc2 : ¬cond2 i) (hc3 : ¬cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (x7 : Vec F S2000x128 .f32) (xs0 : Vec F S32x128 .f32) (xc : Vec F S100000x128 .f32) (o : ℕ) (ho : k0_off1 i = ![o, 0]) (r : Fin 100000) (j : Fin 128)
    (hr : r.val < o ∨ o + 2000 ≤ r.val) :
    (runB c i arg2 harg2 arg3 harg3 arg4 harg4 arg5 harg5 arg6 harg6 arg7 harg7 arg8 harg8 arg9 harg9 arg10 harg10 arg11 harg11 hc0 hc1 hc2 hc3 x0 x1 x2 x3 x4 x5 x6 x7 xs0 xc).1.2 (ix2 r j) = xc (ix2 r j) := by
  unfold runB
  dsimp only
  refine (View.read_writes_cons_rows_of_not_mem arg11.view (harg11.unread xc) _ _ [] (ix2 r j) ho rfl hr).trans ?_
  rw [View.writes_nil, harg11.read_unread]

/-! ## Point 50 -/

theorem runC_acc (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : ¬cond1 i) (hc2 : cond2 i) (hc3 : cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (xs0 : Vec F S32x128 .f32) (xc : Vec F S100000x128 .f32) (f : arg10.view.ty.Contents (Elt F)) :
    arg10.view.read (Elt F) (arg10.view.writes (Elt F) f (runC c i arg2 harg2 arg3 harg3 arg4 harg4 arg5 harg5 arg6 harg6 arg7 harg7 arg8 harg8 arg9 harg9 arg10 harg10 arg11 harg11 hc0 hc1 hc2 hc3 x0 x1 x2 x3 x4 x5 x6 xs0 xc).1.2) = k0_pay4 xs0 x2 x3 x4 x5 := by
  unfold runC
  dsimp only
  sl_unfold_words
  refine (read_writes_cons_whole (S := S32x128) arg10.view f hz2 _ _ _).trans ?_
  simp only [View.readAt_eq_ld, harg2.read_unread, harg3.read_unread, harg4.read_unread, harg5.read_unread, harg6.read_unread, harg7.read_unread, harg8.read_unread, harg10.read_unread,
    View.ld_unit_zero (S := S2000x32) hz2, View.ld_unit_zero (S := S2000x128) hz2, View.ld_unit_zero (S := S32x1) hz2, View.ld_unit_zero (S := S128x128) hz2, View.ld_unit_zero (S := S1x128) hz2, View.ld_unit_zero (S := S32x128) hz2,
    View.readCov_unit_zero (S := S32x128) _ hz2]

theorem runC_out (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : ¬cond1 i) (hc2 : cond2 i) (hc3 : cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (xs0 : Vec F S32x128 .f32) (xc : Vec F S100000x128 .f32) (f : arg9.view.ty.Contents (Elt F)) (b : Fin 50) (ho : k0_off2 i = ![2000 * b.val, 0]) :
    arg9.view.read (Elt F) (arg9.view.writes (Elt F) f (runC c i arg2 harg2 arg3 harg3 arg4 harg4 arg5 harg5 arg6 harg6 arg7 harg7 arg8 harg8 arg9 harg9 arg10 harg10 arg11 harg11 hc0 hc1 hc2 hc3 x0 x1 x2 x3 x4 x5 x6 xs0 xc).1.1)
      = k0_pay5 (rowsOf xc b) x0 (k0_pay4 xs0 x2 x3 x4 x5) x6 := by
  unfold runC
  dsimp only
  sl_unfold_words
  refine (read_writes_cons_whole (S := S2000x128) arg9.view f hz2 _ _ _).trans ?_
  simp only [View.readAt_eq_ld, harg2.read_unread, harg3.read_unread, harg4.read_unread, harg5.read_unread, harg6.read_unread, harg7.read_unread, harg8.read_unread, harg10.read_unread,
    View.ld_unit_zero (S := S2000x32) hz2, View.ld_unit_zero (S := S2000x128) hz2, View.ld_unit_zero (S := S32x1) hz2, View.ld_unit_zero (S := S128x128) hz2, View.ld_unit_zero (S := S1x128) hz2, View.ld_unit_zero (S := S32x128) hz2,
    View.readCov_unit_zero (S := S32x128) _ hz2]
  exact congrArg (fun z => k0_pay5 z x0 (k0_pay4 xs0 x2 x3 x4 x5) x6) (readAt_rows arg11 harg11 xc _ _ b ho)

/-! ## A point above 50 -/

theorem runD_out (c : Dev nD) (i : grid0.Coords) (arg2 : Memref sig .tc .vmem S2000x32 .f32) (harg2 : arg2.IsWhole) (arg3 : Memref sig .tc .vmem S2000x128 .f32) (harg3 : arg3.IsWhole) (arg4 : Memref sig .tc .vmem S32x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S2000x128 .f32) (harg9 : arg9.IsWhole) (arg10 : Memref sig .tc .vmem S32x128 .f32) (harg10 : arg10.IsWhole) (arg11 : Memref sig .tc .vmem S100000x128 .f32) (harg11 : arg11.IsWhole) (hc0 : ¬cond0 i) (hc1 : ¬cond1 i) (hc2 : ¬cond2 i) (hc3 : cond3 i) (x0 : Vec F S2000x32 .f32) (x1 : Vec F S2000x128 .f32) (x2 : Vec F S32x1 .f32) (x3 : Vec F S128x128 .f32) (x4 : Vec F S1x128 .f32) (x5 : Vec F S128x128 .f32) (x6 : Vec F S1x128 .f32) (xs0 : Vec F S32x128 .f32) (xc : Vec F S100000x128 .f32) (f : arg9.view.ty.Contents (Elt F)) (b : Fin 50) (ho : k0_off2 i = ![2000 * b.val, 0]) :
    arg9.view.read (Elt F) (arg9.view.writes (Elt F) f (runD c i arg2 harg2 arg3 harg3 arg4 harg4 arg5 harg5 arg6 harg6 arg7 harg7 arg8 harg8 arg9 harg9 arg10 harg10 arg11 harg11 hc0 hc1 hc2 hc3 x0 x1 x2 x3 x4 x5 x6 xs0 xc).1)
      = k0_pay5 (rowsOf xc b) x0 xs0 x6 := by
  unfold runD
  dsimp only
  sl_unfold_words
  refine (read_writes_cons_whole (S := S2000x128) arg9.view f hz2 _ _ _).trans ?_
  simp only [View.readAt_eq_ld, harg2.read_unread, harg3.read_unread, harg4.read_unread, harg5.read_unread, harg6.read_unread, harg7.read_unread, harg8.read_unread, harg10.read_unread,
    View.ld_unit_zero (S := S2000x32) hz2, View.ld_unit_zero (S := S2000x128) hz2, View.ld_unit_zero (S := S32x1) hz2, View.ld_unit_zero (S := S128x128) hz2, View.ld_unit_zero (S := S1x128) hz2, View.ld_unit_zero (S := S32x128) hz2,
    View.readCov_unit_zero (S := S32x128) _ hz2]
  exact congrArg (fun z => k0_pay5 z x0 xs0 x6) (readAt_rows arg11 harg11 xc _ _ b ho)

end Cert.KernelIdeal.Hand

end
-- ==== Proof.KernelIdealBlocks.lean ====
/-
  What the body finds in its input windows at a point, read off the argument arrays.

  The basis window's block at point t is rows 2000 (t mod 50), …, 2000 (t mod 50) + 1999 of the basis array; the
  features window's block at a point t below 50 is rows 2000 t, …, 2000 t + 1999 of the features array; the five
  small operands are staged whole: the eigenvalues as a column [32, 1], the two biases as rows [1, 128] (each a
  reshape of its argument made before the region), the two matrices as they are.
-/
import proofs.«150664_g34772055229035_cont_8to1_b_1465_6_alg».proof.Proof.Gen.KernelIdeal.Frame
import proofs.«150664_g34772055229035_cont_8to1_b_1465_6_alg».proof.Proof.KernelIdealBlockDefs
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The printed index maps, decided over the grid -/

/-- The basis window steps through the fifty row blocks twice (block `t mod 50`), the features window through them
    once, at the first fifty points; both stay on the one column block. -/
theorem idx_facts : ∀ t : Fin cfg0.N,
    win0_0.index t (0 : Fin 2) = t.val % 50 ∧ win0_0.index t (1 : Fin 2) = 0
    ∧ (t.val < 50 → win0_1.index t (0 : Fin 2) = t.val) ∧ win0_1.index t (1 : Fin 2) = 0 :=
  (by decide +kernel : ∀ t : Fin grid0.N, _)

/-- The five small operands' windows stay on their one block. -/
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-! ## Each window's block at an index of the block: its array at the index the block's position names -/

/-- The basis window: row `2000 (t mod 50) + x 0`, column `x 1` of the basis array. -/
theorem iblk0_apply (c : Dev nD) (t : Fin cfg0.N) (x : S2000x32.Idx) (k : S100000x32.Idx)
    (hk0 : (k 0).val = 2000 * (t.val % 50) + (x 0).val) (hk1 : (k 1).val = (x 1).val) :
    (iblk m c 0 t : Vec F S2000x32 .f32) x = (m ((c : Thread nD τ).loc main_arg1) : S100000x32.Idx → Elt F .f32) k := by
  obtain ⟨e0, e1, -, -⟩ := idx_facts t
  unfold iblk
  rw [View.read_apply]
  show V m c main_arg1 _ = m (c.tc.loc main_arg1) _
  rw [V_main_arg1]
  congr 1
  funext a
  apply Fin.ext
  match a with
  | ⟨0, _⟩ => show win0_0.index t 0 * 2000 + 1 * (x 0).val = (k 0).val; rw [e0, hk0]; omega
  | ⟨1, _⟩ => show win0_0.index t 1 * 32 + 1 * (x 1).val = (k 1).val; rw [e1, hk1]; omega

/-- The features window at one of the first fifty points: row `2000 t + x 0`, column `x 1` of the features array. -/
theorem iblk1_apply (c : Dev nD) (t : Fin cfg0.N) (ht : t.val < 50) (x : S2000x128.Idx) (k : S100000x128.Idx)
    (hk0 : (k 0).val = 2000 * t.val + (x 0).val) (hk1 : (k 1).val = (x 1).val) :
    (iblk m c 1 t : Vec F S2000x128 .f32) x = (m ((c : Thread nD τ).loc main_arg0) : S100000x128.Idx → Elt F .f32) k := by
  obtain ⟨-, -, e0, e1⟩ := idx_facts t
  unfold iblk
  rw [View.read_apply]
  show V m c main_arg0 _ = m (c.tc.loc main_arg0) _
  rw [V_main_arg0]
  congr 1
  funext a
  apply Fin.ext
  match a with
  | ⟨0, _⟩ => show win0_1.index t 0 * 2000 + 1 * (x 0).val = (k 0).val; rw [e0 ht, hk0]; omega
  | ⟨1, _⟩ => show win0_1.index t 1 * 128 + 1 * (x 1).val = (k 1).val; rw [e1, hk1]; omega

/-- The output matrix of the filter, staged whole: the block is the array. -/
theorem iblk3_eq (c : Dev nD) (t : Fin cfg0.N) :
    (iblk m c 3 t : Vec F S128x128 .f32) = (m ((c : Thread nD τ).loc main_arg3) : S128x128.Idx → Elt F .f32) := by
  obtain ⟨-, ⟨e0, e1⟩, -, -, -⟩ := idx_whole t
  funext x
  unfold iblk
  rw [View.read_apply]
  show V m c main_arg3 _ = m (c.tc.loc main_arg3) _
  rw [V_main_arg3]
  congr 1
  funext a
  apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- The output matrix, staged whole: the block is the array. -/
theorem iblk5_eq (c : Dev nD) (t : Fin cfg0.N) :
    (iblk m c 5 t : Vec F S128x128 .f32) = (m ((c : Thread nD τ).loc main_arg5) : S128x128.Idx → Elt F .f32) := by
  obtain ⟨-, -, -, ⟨e0, e1⟩, -⟩ := idx_whole t
  funext x
  unfold iblk
  rw [View.read_apply]
  show V m c main_arg5 _ = m (c.tc.loc main_arg5) _
  rw [V_main_arg5]
  congr 1
  funext a
  apply Fin.ext
  match a with
  | ⟨0, _⟩ => show win0_5.index t 0 * 128 + 1 * (x 0).val = (x 0).val; rw [e0]; omega
  | ⟨1, _⟩ => show win0_5.index t 1 * 128 + 1 * (x 1).val = (x 1).val; rw [e1]; omega

/-! ## The three operands a reshape made before the region -/

/-- The eigenvalue column the region finds is the reshape of the eigenvalue argument. -/
theorem V_lam (c : Dev nD) :
    (V m c main_call0_v0 : S32x1.Idx → Elt F .f32)
      = shapeCast S32x1 (m ((c : Thread nD τ).loc main_arg2) : S32.Idx → Elt F .f32) shapeCasts_S32_S32x1 := by
  dsimp only [Gen.V, Gen.hostOps0]
  after_results
  rfl

/-- The filter's bias row the region finds is the reshape of its argument. -/
theorem V_bf (c : Dev nD) :
    (V m c main_call0_v1 : S1x128.Idx → Elt F .f32)
      = shapeCast S1x128 (m ((c : Thread nD τ).loc main_arg4) : S128.Idx → Elt F .f32) shapeCasts_S128_S1x128 := by
  dsimp only [Gen.V, Gen.hostOps0]
  after_results
  rfl

/-- The output's bias row the region finds is the reshape of its argument. -/
theorem V_bo (c : Dev nD) :
    (V m c main_call0_v2 : S1x128.Idx → Elt F .f32)
      = shapeCast S1x128 (m ((c : Thread nD τ).loc main_arg6) : S128.Idx → Elt F .f32) shapeCasts_S128_S1x128 := by
  dsimp only [Gen.V, Gen.hostOps0]
  after_results
  rfl

/-- A [32] array cast to a column [32, 1] reads, at `(k, 0)`, the operand at `k`. -/
theorem shapeCast_col_apply {α : Type} (v : S32.Idx → α) (h : S32.ShapeCasts S32x1) (k : Fin 32) (u : Fin 1) :
    shapeCast S32x1 v h (ix2 k u) = v (ix1 k) :=
  shapeCast_apply v h _ _ (by
    have hu : u.val = 0 := by omega
    rw [Shape.rowMajor_val_two, Shape.rowMajor_val_one]
    show k.val = k.val * 1 + u.val
    rw [hu, Nat.mul_one, Nat.add_zero])

/-- The eigenvalue window's block, staged whole, at `(k, 0)`: the eigenvalue argument at `k`. -/
theorem iblk2_apply (c : Dev nD) (t : Fin cfg0.N) (k : Fin 32) (u : Fin 1) :
    (iblk m c 2 t : Vec F S32x1 .f32) (ix2 k u) = (m ((c : Thread nD τ).loc main_arg2) : S32.Idx → Elt F .f32) (ix1 k) := by
  obtain ⟨⟨e0, e1⟩, -, -, -, -⟩ := idx_whole t
  have hidx : (((cfg0.win 2).blk t).view.emb (ix2 k u) : S32x1.Idx) = ix2 k u := by
    funext a
    apply Fin.ext
    match a with
    | ⟨0, _⟩ => show win0_2.index t 0 * 32 + 1 * k.val = k.val; rw [e0]; omega
    | ⟨1, _⟩ => show win0_2.index t 1 * 1 + 1 * u.val = u.val; rw [e1]; omega
  unfold iblk
  rw [View.read_apply]
  show V m c main_call0_v0 (((cfg0.win 2).blk t).view.emb (ix2 k u)) = _
  rw [hidx]
  exact (congrFun (V_lam m c) (ix2 k u)).trans (shapeCast_col_apply _ _ k u)

/-- The filter's bias window's block, staged whole, at `(0, j)`: the bias argument at `j`. -/
theorem iblk4_apply (c : Dev nD) (t : Fin cfg0.N) (u : Fin 1) (j : Fin 128) :
    (iblk m c 4 t : Vec F S1x128 .f32) (ix2 u j) = (m ((c : Thread nD τ).loc main_arg4) : S128.Idx → Elt F .f32) (ix1 j) := by
  obtain ⟨-, -, ⟨e0, e1⟩, -, -⟩ := idx_whole t
  have hidx : (((cfg0.win 4).blk t).view.emb (ix2 u j) : S1x128.Idx) = ix2 u j := by
    funext a
    apply Fin.ext
    match a with
    | ⟨0, _⟩ => show win0_4.index t 0 * 1 + 1 * u.val = u.val; rw [e0]; omega
    | ⟨1, _⟩ => show win0_4.index t 1 * 128 + 1 * j.val = j.val; rw [e1]; omega
  unfold iblk
  rw [View.read_apply]
  show V m c main_call0_v1 (((cfg0.win 4).blk t).view.emb (ix2 u j)) = _
  rw [hidx]
  exact (congrFun (V_bf m c) (ix2 u j)).trans (shapeCast_a_1a_apply _ _ u j)

/-- The output's bias window's block, staged whole, at `(0, j)`: the bias argument at `j`. -/
theorem iblk6_apply (c : Dev nD) (t : Fin cfg0.N) (u : Fin 1) (j : Fin 128) :
    (iblk m c 6 t : Vec F S1x128 .f32) (ix2 u j) = (m ((c : Thread nD τ).loc main_arg6) : S128.Idx → Elt F .f32) (ix1 j) := by
  obtain ⟨-, -, -, -, ⟨e0, e1⟩⟩ := idx_whole t
  have hidx : (((cfg0.win 6).blk t).view.emb (ix2 u j) : S1x128.Idx) = ix2 u j := by
    funext a
    apply Fin.ext
    match a with
    | ⟨0, _⟩ => show win0_6.index t 0 * 1 + 1 * u.val = u.val; rw [e0]; omega
    | ⟨1, _⟩ => show win0_6.index t 1 * 128 + 1 * j.val = j.val; rw [e1]; omega
  unfold iblk
  rw [View.read_apply]
  show V m c main_call0_v2 (((cfg0.win 6).blk t).view.emb (ix2 u j)) = _
  rw [hidx]
  exact (congrFun (V_bo m c) (ix2 u j)).trans (shapeCast_a_1a_apply _ _ u j)

/-! ## The blocks read off the arrays -/

theorem evBlk_apply (c : Dev nD) (t : Fin cfg0.N) (a : Fin 2000) (k : Fin 32) :
    evBlk m c t (ix2 a k)
      = evArr m c (ix2 (⟨2000 * (t.val % 50) + a.val, by have := a.isLt; have := Nat.mod_lt t.val (show 0 < 50 by norm_num); omega⟩ : Fin 100000) k) :=
  iblk0_apply m c t (ix2 a k) _ rfl rfl

theorem xBlk_apply (c : Dev nD) (t : Fin cfg0.N) (ht : t.val < 50) (a : Fin 2000) (j : Fin 128) :
    xBlk m c t (ix2 a j) = xArr m c (ix2 (⟨2000 * t.val + a.val, by have := a.isLt; omega⟩ : Fin 100000) j) :=
  iblk1_apply m c t ht (ix2 a j) _ rfl rfl

theorem lamBlk_apply (c : Dev nD) (t : Fin cfg0.N) (k : Fin 32) :
    lamBlk m c t (ix2 k (0 : Fin 1)) = lamArr m c (ix1 k) :=
  iblk2_apply m c t k 0

theorem wfBlk_eq (c : Dev nD) (t : Fin cfg0.N) : wfBlk m c t = wfArr m c :=
  iblk3_eq m c t

theorem bfBlk_apply (c : Dev nD) (t : Fin cfg0.N) (j : Fin 128) :
    bfBlk m c t (ix2 (0 : Fin 1) j) = bfArr m c (ix1 j) :=
  iblk4_apply m c t 0 j

theorem woBlk_eq (c : Dev nD) (t : Fin cfg0.N) : woBlk m c t = woArr m c :=
  iblk5_eq m c t

theorem boBlk_apply (c : Dev nD) (t : Fin cfg0.N) (j : Fin 128) :
    boBlk m c t (ix2 (0 : Fin 1) j) = boArr m c (ix1 j) :=
  iblk6_apply m c t 0 j

end Cert.KernelIdeal.Hand

end
-- ==== Proof.KernelIdealData.lean ====
/-
  The proof data of the kernel region, with every window and both scratch buffers named.

  Between points the region keeps: the accumulator scratch at what the point before left (`accAt`), the feature
  cache at SOME contents that agree with the features array on every row the first phase has cached so far
  (`CacheOK`: the cache starts at anything, so only the cached rows are known), and the generator register at
  some state. The proof data name each input window's buffer at its block and the output window's buffer, from
  point 50 on, at `outAt`; below point 50 the output window is idle and keeps what it held.
-/
import proofs.«150664_g34772055229035_cont_8to1_b_1465_6_alg».proof.Proof.KernelIdealLeaves
import proofs.«150664_g34772055229035_cont_8to1_b_1465_6_alg».proof.Proof.KernelIdealBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The two row offsets the body computes, in closed form -/

theorem off1_eq : ∀ t : Fin cfg0.N, t.val < 50 → k0_off1 (grid0.coords t) = ![2000 * t.val, 0] :=
  (by decide +kernel : ∀ t : Fin grid0.N, t.val < 50 → k0_off1 (grid0.coords t) = ![2000 * t.val, 0])

theorem off2_eq : ∀ t : Fin cfg0.N, 50 ≤ t.val → k0_off2 (grid0.coords t) = ![2000 * ((t.val - 50) % 50), 0] :=
  (by decide +kernel : ∀ t : Fin grid0.N, 50 ≤ t.val → k0_off2 (grid0.coords t) = ![2000 * ((t.val - 50) % 50), 0])

theorem N_eq : cfg0.N = 100 := N_0

/-! ## The cache: what is known of it after n points -/

/-- The cache agrees with the features array on the rows below `2000 n`. -/
def CacheOK (c : Dev nD) (n : ℕ) (d : Vec F S100000x128 .f32) : Prop :=
  ∀ (r : Fin 100000) (j : Fin 128), r.val < 2000 * n → d (ix2 r j) = xArr m c (ix2 r j)

theorem cacheOK_zero (c : Dev nD) (d : Vec F S100000x128 .f32) : CacheOK m c 0 d := fun r j h => absurd h (by omega)

/-- One more block cached: the new contents hold the point's block on its rows and the old contents elsewhere. -/
theorem cacheOK_step (c : Dev nD) (t : Fin cfg0.N) (ht : t.val < 50) (d d' : Vec F S100000x128 .f32) (h : CacheOK m c t.val d)
    (hin : ∀ (a : Fin 2000) (j : Fin 128), d' (ix2 (⟨2000 * t.val + a.val, by have := a.isLt; omega⟩ : Fin 100000) j) = xBlk m c t (ix2 a j))
    (hout : ∀ (r : Fin 100000) (j : Fin 128), (r.val < 2000 * t.val ∨ 2000 * t.val + 2000 ≤ r.val) → d' (ix2 r j) = d (ix2 r j)) :
    CacheOK m c (t.val + 1) d' := by
  intro r j hr
  by_cases hlo : r.val < 2000 * t.val
  · rw [hout r j (Or.inl hlo)]; exact h r j hlo
  · have e : r = (⟨2000 * t.val + (⟨r.val - 2000 * t.val, by omega⟩ : Fin 2000).val, by have := r.isLt; dsimp only; omega⟩ : Fin 100000) :=
      Fin.ext (by dsimp only; omega)
    rw [e, hin ⟨r.val - 2000 * t.val, by omega⟩ j, xBlk_apply m c t ht]

/-- Once every row is cached nothing more is to be known. -/
theorem cacheOK_full (c : Dev nD) (n n' : ℕ) (hn : 50 ≤ n) (d : Vec F S100000x128 .f32) (h : CacheOK m c n d) : CacheOK m c n' d :=
  fun r j _ => h r j (by have := r.isLt; omega)

theorem cacheOK_rows (c : Dev nD) (n : ℕ) (hn : 50 ≤ n) (d : Vec F S100000x128 .f32) (h : CacheOK m c n d) (b : Fin 50) :
    rowsOf d b = rowsOf (xArr m c) b := by
  funext y
  unfold rowsOf
  exact h _ _ (by have := b.isLt; have h0 : (y 0).val < 2000 := (y 0).isLt; dsimp only; omega)

/-! ## The region's invariant between points -/

def Phi (c : Dev nD) : (n : ℕ) → n ≤ cfg0.N → sProp 𝕄
  | 0, _ => Pipeline.ΦA spec0 c
  | n + 1, hn => iprop(iprop(owns (c : Thread nD τ) accM fullShare (accAt m c n hn) ∗ (∃ d, ⌜CacheOK m c (n + 1) d⌝ ∗ owns (c : Thread nD τ) cacheM fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) accM fullShare (accAt m c n hn) ∗ (∃ d, ⌜CacheOK m c (n + 1) d⌝ ∗ owns (c : Thread nD τ) cacheM fullShare d)) ∗ (∃ r, prngReg c r)) := rfl

theorem Phi_pos (c : Dev nD) (n : ℕ) (h : n ≤ cfg0.N) (hz : n ≠ 0) :
    Phi m c n h = iprop(iprop(owns (c : Thread nD τ) accM fullShare (accAt m c (n - 1) (by omega)) ∗ (∃ d, ⌜CacheOK m c n d⌝ ∗ owns (c : Thread nD τ) cacheM fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem idle7_true (t : Fin cfg0.N) (h : t.val < 50) : cfg0.idle 7 (cfg0.grid.coords t) = true := (idle7 t).mpr h
theorem idle7_false (t : Fin cfg0.N) (h : 50 ≤ t.val) : cfg0.idle 7 (cfg0.grid.coords t) = false :=
  Bool.eq_false_iff.mpr fun hh => absurd ((idle7 t).mp hh) (by omega)
theorem flush7_false (t : Fin cfg0.N) (h : t.val < 50) : (cfg0.win 7).flush t = false :=
  Bool.eq_false_iff.mpr fun hh => absurd ((flush7 t).mp hh) (by omega)

/-- Below point 50 the output window's buffer is handed back as it was found. -/
theorem leaves7_idle (c : Dev nD) (t : Fin cfg0.N) (h : t.val < 50) :
    (dats m 0 c).leavesExact 7 t = iprop(∃ d, owns (c : Thread nD τ) (ms7 t) fullShare ((dats m 0 c).before 7 t d)) :=
  (dats m 0 c).leavesExact_idle 7 t (idle7_true t h) (flush7_false t h)

/-- From point 50 on it is handed back at the output block. -/
theorem leaves7_live (c : Dev nD) (t : Fin cfg0.N) (h : 50 ≤ t.val) :
    (dats m 0 c).leavesExact 7 t = owns (c : Thread nD τ) (ms7 t) fullShare (outAt m c t) := by
  unfold Dat.leavesExact; rw [idle7_false t h, after_7]

end Cert.KernelIdeal.Hand

end
-- ==== Proof.KernelIdealFrame.lean ====
/-
  The frame of the kernel region.

  The body obligation is a case split on the point: point 0, a point between 0 and 50, point 50, a point above
  50, each one run of the body, after which the invariant is put back together: the accumulator at the case's
  value, the cache with one more block known (or, in the second phase, unchanged), the output buffer at the
  output block or, below point 50, as it was found. The launch is the library's frame run with a tracked
  invariant; its post gives every array after the region, the output array as the blocks the points from 50 on
  wrote back.
-/
import proofs.«150664_g34772055229035_cont_8to1_b_1465_6_alg».proof.Proof.KernelIdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

set_option maxHeartbeats 4000000 in
/-- Point 0. -/
theorem body_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  rw [leaves7_idle m c t (by omega)]
  rw [Phi_castSucc m c t, Phi_zero m c _ _ h0, PhiA_eq]
  iintro ⟨⟨⟨⟨%ds0, HS0⟩, ⟨%dc, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t) _ _ _ _ _ _ _ _ _ _ _ _ _ _ _ _ _ _ _ _ ((hcond0 t).mpr h0) ((hcond1 t).mpr (by omega)) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) dc).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexact HS1
  iintro ⟨H0, H1, H2, H3, H4, H5, H6, H7, ⟨%es0, HS0⟩, HS1⟩
  isplitl [HS0 HS1 Hg]
  · isplitl [HS0 HS1]
    · isplitl [HS0]
      · unfold owns; iexists _; isplitr
        swap; · iexact HS0
        ipureintro
        rw [accAt_first m c t h0]
        exact runA_acc c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) ((hcond0 t).mpr h0) ((hcond1 t).mpr (by omega)) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) dc es0
      · iexists _; isplitr
        swap; · iexact HS1
        ipureintro
        refine cacheOK_step m c t (by omega) dc _ (h0 ▸ cacheOK_zero m c dc) (fun a j => ?_) (fun r j hr => ?_)
        · exact runA_cache_in c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) ((hcond0 t).mpr h0) ((hcond1 t).mpr (by omega)) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) dc (2000 * t.val) (off1_eq t (by omega)) (by omega) a j
        · exact runA_cache_out c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) ((hcond0 t).mpr h0) ((hcond1 t).mpr (by omega)) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) dc (2000 * t.val) (off1_eq t (by omega)) r j hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

set_option maxHeartbeats 4000000 in
/-- A point strictly between 0 and 50. -/
theorem body_acc (c : Dev nD) (t : Fin cfg0.N) (h0 : t.val ≠ 0) (h1 : t.val < 50) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  rw [leaves7_idle m c t h1]
  rw [Phi_castSucc m c t, Phi_pos m c _ _ h0]
  iintro ⟨⟨⟨HS0, ⟨%dc, %hdc, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t) _ _ _ _ _ _ _ _ _ _ _ _ _ _ _ _ _ _ _ _ (fun h => by have := (hcond0 t).mp h; omega) ((hcond1 t).mpr h1) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) (accAt m c (t.val - 1) (by omega)) dc).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, ⟨%es0, HS0⟩, HS1⟩
  isplitl [HS0 HS1 Hg]
  · isplitl [HS0 HS1]
    · isplitl [HS0]
      · unfold owns; iexists _; isplitr
        swap; · iexact HS0
        ipureintro
        rw [accAt_acc m c t h0 h1]
        exact runB_acc c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) (fun h => by have := (hcond0 t).mp h; omega) ((hcond1 t).mpr h1) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) (accAt m c (t.val - 1) (by omega)) dc es0
      · iexists _; isplitr
        swap; · iexact HS1
        ipureintro
        refine cacheOK_step m c t h1 dc _ hdc (fun a j => ?_) (fun r j hr => ?_)
        · exact runB_cache_in c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) (fun h => by have := (hcond0 t).mp h; omega) ((hcond1 t).mpr h1) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) (accAt m c (t.val - 1) (by omega)) dc (2000 * t.val) (off1_eq t h1) (by omega) a j
        · exact runB_cache_out c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) (fun h => by have := (hcond0 t).mp h; omega) ((hcond1 t).mpr h1) (fun h => by have := (hcond2 t).mp h; omega) (fun h => by have := (hcond3 t).mp h; omega) (evBlk m c t) (xBlk m c t) (lamBlk m c t) (wfBlk m c t) (bfBlk m c t) (woBlk m c t) (boBlk m c t) ((dats m 0 c).before 7 t d7) (accAt m c (t.val - 1) (by omega)) dc (2000 * t.val) (off1_eq t h1) r j hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

set_option maxHeartbeats 4000000 in
/-- Point 50. -/
theorem body_gate (c : Dev nD) (t : Fin cfg0.N) (h2 : t.val = 50) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  rw [leaves7_live m c t (by omega)]
  rw [Phi_castSucc m c t, Phi_pos m c _ _ (by omega)]
  iintro ⟨⟨⟨HS0, ⟨%dc, %hdc, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c (grid0.coords t) _ _ _ _ _ _ _ _ _ _ _ _ _ _ _ _ _ _ _ _ (fun h => by have := (hcond0 t).mp h; omega) (fun h => by have := (hcond1 t).mp h; omega) ((hcond2 t).mpr h2) ((hcond3 t).mpr (by omega)) (evBlk m c t) (xBlk m c t) (lamBlk m c t) (wfBlk m c t) (bfBlk m c t) (woBlk m c t) (boBlk m c t) (accAt m c (t.val - 1) (by omega)) dc).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, ⟨%es0, HS0⟩, HS1⟩
  isplitl [HS0 HS1 Hg]
  · isplitl [HS0 HS1]
    · isplitl [HS0]
      · unfold owns; iexists _; isplitr
        swap; · iexact HS0
        ipureintro
        rw [accAt_gate m c t h2]
        exact runC_acc c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) (fun h => by have := (hcond0 t).mp h; omega) (fun h => by have := (hcond1 t).mp h; omega) ((hcond2 t).mpr h2) ((hcond3 t).mpr (by omega)) (evBlk m c t) (xBlk m c t) (lamBlk m c t) (wfBlk m c t) (bfBlk m c t) (woBlk m c t) (boBlk m c t) (accAt m c (t.val - 1) (by omega)) dc es0
      · iexists dc; isplitr
        · ipureintro; exact cacheOK_full m c t.val (t.val + 1) (by omega) dc hdc
        iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  unfold outAt
  rw [accAt_gate m c t h2, ← cacheOK_rows m c t.val (by omega) dc hdc]
  exact runC_out c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) (fun h => by have := (hcond0 t).mp h; omega) (fun h => by have := (hcond1 t).mp h; omega) ((hcond2 t).mpr h2) ((hcond3 t).mpr (by omega)) (evBlk m c t) (xBlk m c t) (lamBlk m c t) (wfBlk m c t) (bfBlk m c t) (woBlk m c t) (boBlk m c t) (accAt m c (t.val - 1) (by omega)) dc e7 ⟨(t.val - 50) % 50, Nat.mod_lt _ (by norm_num)⟩ (off2_eq t (by omega))

set_option maxHeartbeats 4000000 in
/-- A point above 50. -/
theorem body_out (c : Dev nD) (t : Fin cfg0.N) (h3 : 50 < t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  rw [show (dats m 0 c).leavesExact 5 t = owns (c : Thread nD τ) (ms5 t) fullShare ((dats m 0 c).after 5 t) from by
    unfold Dat.leavesExact; rw [live5 t], after_5]
  rw [show (dats m 0 c).leavesExact 6 t = owns (c : Thread nD τ) (ms6 t) fullShare ((dats m 0 c).after 6 t) from by
    unfold Dat.leavesExact; rw [live6 t], after_6]
  rw [leaves7_live m c t (by omega)]
  rw [Phi_castSucc m c t, Phi_pos m c _ _ (by omega)]
  iintro ⟨⟨⟨HS0, ⟨%dc, %hdc, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runD c (grid0.coords t) _ _ _ _ _ _ _ _ _ _ _ _ _ _ _ _ _ _ _ _ (fun h => by have := (hcond0 t).mp h; omega) (fun h => by have := (hcond1 t).mp h; omega) (fun h => by have := (hcond2 t).mp h; omega) ((hcond3 t).mpr (by omega)) (evBlk m c t) (xBlk m c t) (lamBlk m c t) (wfBlk m c t) (bfBlk m c t) (woBlk m c t) (boBlk m c t) (accAt m c (t.val - 1) (by omega)) dc).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, HS0, HS1⟩
  isplitl [HS0 HS1 Hg]
  · isplitl [HS0 HS1]
    · isplitl [HS0]
      · rw [accAt_keep m c t h3]; iexact HS0
      · iexists dc; isplitr
        · ipureintro; exact cacheOK_full m c t.val (t.val + 1) (by omega) dc hdc
        iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro
  unfold outAt
  rw [accAt_keep m c t h3, ← cacheOK_rows m c t.val (by omega) dc hdc]
  exact runD_out c (grid0.coords t) (ms0 t) (hs0 t) (ms1 t) (hs1 t) (ms2 t) (hs2 t) (ms3 t) (hs3 t) (ms4 t) (hs4 t) (ms5 t) (hs5 t) (ms6 t) (hs6 t) (ms7 t) (hs7 t) accM (Memref.isWhole_whole _) cacheM (Memref.isWhole_whole _) (fun h => by have := (hcond0 t).mp h; omega) (fun h => by have := (hcond1 t).mp h; omega) (fun h => by have := (hcond2 t).mp h; omega) ((hcond3 t).mpr (by omega)) (evBlk m c t) (xBlk m c t) (lamBlk m c t) (wfBlk m c t) (bfBlk m c t) (woBlk m c t) (boBlk m c t) (accAt m c (t.val - 1) (by omega)) dc e7 ⟨(t.val - 50) % 50, Nat.mod_lt _ (by norm_num)⟩ (off2_eq t (by omega))

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact body_first m c t h0
  · by_cases h1 : t.val < 50
    · exact body_acc m c t h0 h1
    · by_cases h2 : t.val = 50
      · exact body_gate m c t h2
      · exact body_out m c t (by omega)

theorem body_obligation (c : Dev nD) : BodyObligation (dats (F := F) m 0 c) (defs₀ (F := F)) Variants.none () Set.univ := fun t => by
  rw [bigSep_W0, bigSep_W0]
  exact sound_body m c t

/-! ## The launch -/

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 100 := N_0; omega), PhiA_eq]
  iintro ⟨⟨HS0, ⟨%dc, -, HS1⟩⟩, Hg⟩
  isplitl [HS0 HS1]
  · isplitl [HS0]
    · iexists _; iexact HS0
    iexists _; iexact HS1
  iexact Hg

set_option backward.isDefEq.respectTransparency.types false in
/-- Every weakly fair execution of @main ends with every array of the region at what the proof data compute and
    every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Payloads.lean ====
/-
  The kernel body's five stored values at the ideal instance, read at an entry.

  The body stores: a zero block (the accumulator's reset); the accumulator plus the product of the transposed
  2000-row block of the basis with the same rows of the features; those feature rows themselves (into the cache);
  the gated spectrum through the output matrix; and a cached block of features plus the basis rows times that
  matrix, plus the output bias. Each is stated here as plain sums and products on the extended reals.
-/
import proofs.«150664_g34772055229035_cont_8to1_b_1465_6_alg».proof.Proof.Gen.KernelIdeal.Skeleton
import proofs.«150664_g34772055229035_cont_8to1_b_1465_6_alg».proof.Proof.LibDot2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The dimension numbers' coordinate facts

For each of the three records: which coordinate of each operand is a coordinate of the output index and which is the
contraction index's one coordinate. The accumulation step contracts the first axis of both operands (the block's
rows); the two products through a 128 by 128 matrix and the output block's product contract the left operand's
second axis with the right operand's first. -/

/-- Accumulation step, left operand: its rows are contracted … -/
theorem accDot_lhs_0 (i : S32x128.Idx) (q : dot_S2000x32_S2000x128_S32x128_0_0_1_1_n_n.contr.Idx) :
    (dot_S2000x32_S2000x128_S32x128_0_0_1_1_n_n.lhsIdx i q 0).val = (q ⟨0, by decide⟩).val :=
  dot_S2000x32_S2000x128_S32x128_0_0_1_1_n_n.lhsIdx_val_of_single rfl i q
/-- … and its columns are the output's rows. -/
theorem accDot_lhs_1 (i : S32x128.Idx) (q : dot_S2000x32_S2000x128_S32x128_0_0_1_1_n_n.contr.Idx) :
    (dot_S2000x32_S2000x128_S32x128_0_0_1_1_n_n.lhsIdx i q 1).val = (i 0).val := by
  unfold DotDims.lhsIdx
  rw [dif_neg (show ¬(1 : Fin S2000x32.rank) ∈ dot_S2000x32_S2000x128_S32x128_0_0_1_1_n_n.lhsBatch by decide), dif_pos (show (1 : Fin S2000x32.rank) ∈ dot_S2000x32_S2000x128_S32x128_0_0_1_1_n_n.lhsNonContracting by decide)]
  rfl
/-- Accumulation step, right operand: its rows are contracted … -/
theorem accDot_rhs_0 (i : S32x128.Idx) (q : dot_S2000x32_S2000x128_S32x128_0_0_1_1_n_n.contr.Idx) :
    (dot_S2000x32_S2000x128_S32x128_0_0_1_1_n_n.rhsIdx i q 0).val = (q ⟨0, by decide⟩).val :=
  dot_S2000x32_S2000x128_S32x128_0_0_1_1_n_n.rhsIdx_val_of_single rfl i q
/-- … and its columns are the output's columns. -/
theorem accDot_rhs_1 (i : S32x128.Idx) (q : dot_S2000x32_S2000x128_S32x128_0_0_1_1_n_n.contr.Idx) :
    (dot_S2000x32_S2000x128_S32x128_0_0_1_1_n_n.rhsIdx i q 1).val = (i 1).val := by
  unfold DotDims.rhsIdx
  rw [dif_neg (show ¬(1 : Fin S2000x128.rank) ∈ dot_S2000x32_S2000x128_S32x128_0_0_1_1_n_n.rhsBatch by decide), dif_pos (show (1 : Fin S2000x128.rank) ∈ dot_S2000x32_S2000x128_S32x128_0_0_1_1_n_n.rhsNonContracting by decide)]
  rfl

/-- Product through a 128 by 128 matrix, left operand: its rows are the output's rows … -/
theorem sqDot_lhs_0 (i : S32x128.Idx) (q : dot_S32x128_S128x128_S32x128_1_0_0_1_n_n.contr.Idx) :
    (dot_S32x128_S128x128_S32x128_1_0_0_1_n_n.lhsIdx i q 0).val = (i 0).val := by
  unfold DotDims.lhsIdx
  rw [dif_neg (show ¬(0 : Fin S32x128.rank) ∈ dot_S32x128_S128x128_S32x128_1_0_0_1_n_n.lhsBatch by decide), dif_pos (show (0 : Fin S32x128.rank) ∈ dot_S32x128_S128x128_S32x128_1_0_0_1_n_n.lhsNonContracting by decide)]
  rfl
/-- … and its columns are contracted. -/
theorem sqDot_lhs_1 (i : S32x128.Idx) (q : dot_S32x128_S128x128_S32x128_1_0_0_1_n_n.contr.Idx) :
    (dot_S32x128_S128x128_S32x128_1_0_0_1_n_n.lhsIdx i q 1).val = (q ⟨0, by decide⟩).val :=
  dot_S32x128_S128x128_S32x128_1_0_0_1_n_n.lhsIdx_val_of_single rfl i q
/-- Product through a 128 by 128 matrix, right operand: its rows are contracted … -/
theorem sqDot_rhs_0 (i : S32x128.Idx) (q : dot_S32x128_S128x128_S32x128_1_0_0_1_n_n.contr.Idx) :
    (dot_S32x128_S128x128_S32x128_1_0_0_1_n_n.rhsIdx i q 0).val = (q ⟨0, by decide⟩).val :=
  dot_S32x128_S128x128_S32x128_1_0_0_1_n_n.rhsIdx_val_of_single rfl i q
/-- … and its columns are the output's columns. -/
theorem sqDot_rhs_1 (i : S32x128.Idx) (q : dot_S32x128_S128x128_S32x128_1_0_0_1_n_n.contr.Idx) :
    (dot_S32x128_S128x128_S32x128_1_0_0_1_n_n.rhsIdx i q 1).val = (i 1).val := by
  unfold DotDims.rhsIdx
  rw [dif_neg (show ¬(1 : Fin S128x128.rank) ∈ dot_S32x128_S128x128_S32x128_1_0_0_1_n_n.rhsBatch by decide), dif_pos (show (1 : Fin S128x128.rank) ∈ dot_S32x128_S128x128_S32x128_1_0_0_1_n_n.rhsNonContracting by decide)]
  rfl

/-- Output block's product, left operand: its rows are the output's rows … -/
theorem outDot_lhs_0 (i : S2000x128.Idx) (q : dot_S2000x32_S32x128_S2000x128_1_0_0_1_n_n.contr.Idx) :
    (dot_S2000x32_S32x128_S2000x128_1_0_0_1_n_n.lhsIdx i q 0).val = (i 0).val := by
  unfold DotDims.lhsIdx
  rw [dif_neg (show ¬(0 : Fin S2000x32.rank) ∈ dot_S2000x32_S32x128_S2000x128_1_0_0_1_n_n.lhsBatch by decide), dif_pos (show (0 : Fin S2000x32.rank) ∈ dot_S2000x32_S32x128_S2000x128_1_0_0_1_n_n.lhsNonContracting by decide)]
  rfl
/-- … and its columns are contracted. -/
theorem outDot_lhs_1 (i : S2000x128.Idx) (q : dot_S2000x32_S32x128_S2000x128_1_0_0_1_n_n.contr.Idx) :
    (dot_S2000x32_S32x128_S2000x128_1_0_0_1_n_n.lhsIdx i q 1).val = (q ⟨0, by decide⟩).val :=
  dot_S2000x32_S32x128_S2000x128_1_0_0_1_n_n.lhsIdx_val_of_single rfl i q
/-- Output block's product, right operand: its rows are contracted … -/
theorem outDot_rhs_0 (i : S2000x128.Idx) (q : dot_S2000x32_S32x128_S2000x128_1_0_0_1_n_n.contr.Idx) :
    (dot_S2000x32_S32x128_S2000x128_1_0_0_1_n_n.rhsIdx i q 0).val = (q ⟨0, by decide⟩).val :=
  dot_S2000x32_S32x128_S2000x128_1_0_0_1_n_n.rhsIdx_val_of_single rfl i q
/-- … and its columns are the output's columns. -/
theorem outDot_rhs_1 (i : S2000x128.Idx) (q : dot_S2000x32_S32x128_S2000x128_1_0_0_1_n_n.contr.Idx) :
    (dot_S2000x32_S32x128_S2000x128_1_0_0_1_n_n.rhsIdx i q 1).val = (i 1).val := by
  unfold DotDims.rhsIdx
  rw [dif_neg (show ¬(1 : Fin S32x128.rank) ∈ dot_S2000x32_S32x128_S2000x128_1_0_0_1_n_n.rhsBatch by decide), dif_pos (show (1 : Fin S32x128.rank) ∈ dot_S2000x32_S32x128_S2000x128_1_0_0_1_n_n.rhsNonContracting by decide)]
  rfl

/-! ## The three matrix products into a zero accumulator, read at an entry -/

/-- A product of a transposed left operand: for shapes [K, M] and [K, N] whose dimension numbers contract the first
    axis of both, the product into a zero accumulator is, at `(p, j)`, the sum over `a : Fin K` of
    `l (a, p) * r (a, j)`. The dimension numbers enter through the four coordinate facts. -/
theorem matmulT_zero_ix2 {M K N : Nat} {φ₁ φ₂ : FTy} (D : DotDims ⟨2, ![K, M]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (q ⟨0, by omega⟩).val)
    (hl1 : ∀ i q, (D.lhsIdx i q 1).val = (i 0).val)
    (hr0 : ∀ i q, (D.rhsIdx i q 0).val = (q ⟨0, by omega⟩).val)
    (hr1 : ∀ i q, (D.rhsIdx i q 1).val = (i 1).val)
    (l : FVec Ideal ⟨2, ![K, M]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 a p) * r (ix2 a j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 a p := funext fun d => Fin.ext (by
    match d with
    | ⟨0, _⟩ => exact (hl0 _ _).trans hk
    | ⟨1, _⟩ => exact hl1 _ _)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- The accumulation step's product: over the block's rows, left column `k` times right column `d`. -/
theorem accDot_apply (l : FVec Ideal S2000x32 .f32) (r : FVec Ideal S2000x128 .f32) (k : Fin 32) (d : Fin 128) :
    matmul dot_S2000x32_S2000x128_S32x128_0_0_1_1_n_n none l r (constant (F := Ideal) S32x128 .f32 0x00000000#32) (ix2 k d)
      = ∑ a : Fin 2000, l (ix2 a k) * r (ix2 a d) :=
  matmulT_zero_ix2 dot_S2000x32_S2000x128_S32x128_0_0_1_1_n_n none rfl rfl accDot_lhs_0 accDot_lhs_1 accDot_rhs_0 accDot_rhs_1 l r k d

/-- A 32-row block through a 128 by 128 matrix. -/
theorem sqDot_apply (l : FVec Ideal S32x128 .f32) (r : FVec Ideal S128x128 .f32) (k : Fin 32) (d : Fin 128) :
    matmul dot_S32x128_S128x128_S32x128_1_0_0_1_n_n none l r (constant (F := Ideal) S32x128 .f32 0x00000000#32) (ix2 k d)
      = ∑ e : Fin 128, l (ix2 k e) * r (ix2 e d) :=
  Cert.Lib.Dot2.matmul_zero_ix2 dot_S32x128_S128x128_S32x128_1_0_0_1_n_n none rfl rfl sqDot_lhs_0 sqDot_lhs_1 sqDot_rhs_0 sqDot_rhs_1 l r k d

/-- The output block's product: the basis rows times the 32-row matrix. -/
theorem outDot_apply (l : FVec Ideal S2000x32 .f32) (r : FVec Ideal S32x128 .f32) (p : Fin 2000) (d : Fin 128) :
    matmul dot_S2000x32_S32x128_S2000x128_1_0_0_1_n_n none l r (constant (F := Ideal) S2000x128 .f32 0x00000000#32) (ix2 p d)
      = ∑ k : Fin 32, l (ix2 p k) * r (ix2 k d) :=
  Cert.Lib.Dot2.matmul_zero_ix2 dot_S2000x32_S32x128_S2000x128_1_0_0_1_n_n none rfl rfl outDot_lhs_0 outDot_lhs_1 outDot_rhs_0 outDot_rhs_1 l r p d

/-! ## The broadcasts, read at an entry -/

/-- A column [32, 1] broadcast along the lanes reads, at `(k, d)`, the column at row `k`. -/
theorem colBroadcast_apply (v : S32x1.Idx → EReal) (h : S32x1.Broadcasts S32x128) (k : Fin 32) (d : Fin 128) :
    broadcastTo S32x128 v h (ix2 k d) = v (ix2 k (0 : Fin 1)) := by
  refine broadcastTo_apply v h (ix2 k d) (ix2 k (0 : Fin 1)) fun ax => ?_
  match ax with
  | ⟨0, _⟩ =>
    show k.val = if (32 : Nat) = 1 then 0 else k.val
    rw [if_neg (by decide)]
  | ⟨1, _⟩ =>
    show (0 : Nat) = if (1 : Nat) = 1 then 0 else d.val
    rw [if_pos rfl]

/-- The logistic function of a block acts entry by entry. -/
theorem logistic_apply {s : Shape} {φ : FTy} (v : FVec Ideal s φ) (i : s.Idx) : logistic v i = Ideal.logistic (v i) := rfl

/-! ## The five stored values -/

/-- The reset value is zero everywhere. -/
theorem pay1_apply (k : Fin 32) (d : Fin 128) : k0_pay1 (F := Ideal) (ix2 k d) = 0 := by
  unfold k0_pay1
  rw [shapeCast_self]
  exact Ideal.ofBits_zero_f32

/-- One accumulation step: the accumulator plus, over the block's 2000 rows a, basis (a, k) * features (a, d). -/
theorem pay2_apply (evb : Vec Ideal S2000x32 .f32) (xb : Vec Ideal S2000x128 .f32) (acc : Vec Ideal S32x128 .f32)
    (k : Fin 32) (d : Fin 128) :
    k0_pay2 (F := Ideal) evb xb acc (ix2 k d) = acc (ix2 k d) + ∑ a : Fin 2000, evb (ix2 a k) * xb (ix2 a d) := by
  unfold k0_pay2
  rw [shapeCast_self, addf_apply, accDot_apply]

/-- The cached rows are the feature rows. -/
theorem pay3_eq (xb : Vec Ideal S2000x128 .f32) : k0_pay3 (F := Ideal) xb = xb := by
  unfold k0_pay3
  exact shapeCast_self _ _

/-- The gated spectrum through the output matrix. -/
theorem pay4_apply (acc : Vec Ideal S32x128 .f32) (lam2 : Vec Ideal S32x1 .f32) (Wf : Vec Ideal S128x128 .f32)
    (bf2 : Vec Ideal S1x128 .f32) (Wo : Vec Ideal S128x128 .f32) (k : Fin 32) (d : Fin 128) :
    k0_pay4 (F := Ideal) acc lam2 Wf bf2 Wo (ix2 k d)
      = ∑ e : Fin 128,
          ((acc (ix2 k e) * lam2 (ix2 k (0 : Fin 1)))
            * Ideal.logistic ((∑ e' : Fin 128, (acc (ix2 k e') * lam2 (ix2 k (0 : Fin 1))) * Wf (ix2 e' e)) + bf2 (ix2 (0 : Fin 1) e)))
          * Wo (ix2 e d) := by
  unfold k0_pay4
  simp only [shapeCast_self]
  rw [sqDot_apply]
  refine Finset.sum_congr rfl fun e _ => ?_
  rw [mulf_apply, logistic_apply, addf_apply, sqDot_apply, broadcastTo_1b_ab_apply]
  simp only [mulf_apply, colBroadcast_apply]

/-- The output block: cached features plus basis rows times the K-row matrix, plus the bias. -/
theorem pay5_apply (xc : Vec Ideal S2000x128 .f32) (evb : Vec Ideal S2000x32 .f32) (acc : Vec Ideal S32x128 .f32)
    (bo2 : Vec Ideal S1x128 .f32) (r : Fin 2000) (d : Fin 128) :
    k0_pay5 (F := Ideal) xc evb acc bo2 (ix2 r d)
      = (xc (ix2 r d) + ∑ k : Fin 32, evb (ix2 r k) * acc (ix2 k d)) + bo2 (ix2 (0 : Fin 1) d) := by
  unfold k0_pay5
  rw [addf_apply, addf_apply, outDot_apply, shapeCast_self, broadcastTo_1b_ab_apply]

end Cert.KernelIdeal.Pay

end
-- ==== Proof.SpectralDefs.lean ====
/-
  The spectral layer, index by index, on the extended reals.

  With node features x : [N, D], a spectral basis ev : [N, K], eigenvalues lam : [K], a mixing matrix Wf : [D, D]
  with bias bf : [D] and an output matrix Wo : [D, D] with bias bo : [D] (N = 100000, D = 128, K = 32):

    proj   k d = sum over nodes n of ev (n, k) * x (n, d)               the features in the spectral basis
    scaled k d = proj k d * lam k                                       filtered by the eigenvalue
    mixed  k d = (sum over e of scaled k e * Wf (e, d)) + bf d          the gate's argument
    gated  k d = scaled k d * logistic (mixed k d)                      the gated spectrum

  and the layer's result is the residual x (n, d) plus the gated spectrum carried back to node n and through Wo,
  plus bo d. The two programs differ in how they bracket that last product: one carries back first and applies Wo
  to each node's row (`outByNode`), the other applies Wo to the K spectral rows once and carries the result back
  (`outBySpectrum`). The two bracketings agree when every entry is a real number (`outBySpectrum_eq_outByNode`):
  a sum of products may then be exchanged and a factor moved across a sum, which fails on the extended reals only
  at the infinities.

  The sum over the nodes is also met in pieces: `rowsBelow` is the sum over the nodes below a bound, and it grows
  by one block of 2000 consecutive nodes at a time (`rowsBelow_succ_block`).
-/
import Idealize.ShloMosaic.Lib.ValueIdx
import Idealize.ShloMosaic.PureOps.Ideal.Laws

noncomputable section

namespace Cert.Spectral

open Idealize.ShloMosaic Idealize.ShloMosaic.ValueIdx

abbrev SNxD : Shape := ⟨2, ![100000, 128]⟩
abbrev SNxK : Shape := ⟨2, ![100000, 32]⟩
abbrev SK : Shape := ⟨1, ![32]⟩
abbrev SDxD : Shape := ⟨2, ![128, 128]⟩
abbrev SD : Shape := ⟨1, ![128]⟩

section Defs

variable (x : SNxD.Idx → EReal) (ev : SNxK.Idx → EReal) (lam : SK.Idx → EReal)
  (Wf : SDxD.Idx → EReal) (bf : SD.Idx → EReal) (Wo : SDxD.Idx → EReal) (bo : SD.Idx → EReal)

/-- The features in the spectral basis: entry (k, d) sums ev (n, k) * x (n, d) over all nodes n. -/
def proj (k : Fin 32) (d : Fin 128) : EReal := ∑ n : Fin 100000, ev (ix2 n k) * x (ix2 n d)

/-- The same sum over the nodes below `b` only. -/
def rowsBelow (b : Nat) (k : Fin 32) (d : Fin 128) : EReal :=
  ∑ n ∈ Finset.univ.filter (fun n : Fin 100000 => n.val < b), ev (ix2 n k) * x (ix2 n d)

/-- Filtered by the eigenvalue of its spectral row. -/
def scaled (k : Fin 32) (d : Fin 128) : EReal := proj x ev k d * lam (ix1 k)

/-- The gate's argument: the filtered spectrum through Wf, plus bf. -/
def mixed (k : Fin 32) (d : Fin 128) : EReal := (∑ e : Fin 128, scaled x ev lam k e * Wf (ix2 e d)) + bf (ix1 d)

/-- The gated spectrum. -/
def gated (k : Fin 32) (d : Fin 128) : EReal := scaled x ev lam k d * Ideal.logistic (mixed x ev lam Wf bf k d)

/-- Carry the gated spectrum back to each node, then apply Wo to the node's row. -/
def outByNode (n : Fin 100000) (d : Fin 128) : EReal :=
  (x (ix2 n d) + ∑ e : Fin 128, (∑ k : Fin 32, ev (ix2 n k) * gated x ev lam Wf bf k e) * Wo (ix2 e d)) + bo (ix1 d)

/-- Apply Wo to the K gated spectral rows, then carry the result back to each node. -/
def outBySpectrum (n : Fin 100000) (d : Fin 128) : EReal :=
  (x (ix2 n d) + ∑ k : Fin 32, ev (ix2 n k) * (∑ e : Fin 128, gated x ev lam Wf bf k e * Wo (ix2 e d))) + bo (ix1 d)

end Defs

end Cert.Spectral

end
-- ==== Proof.Spectral.lean ====
/-
  Facts about the spectral layer, index by index, on the extended reals (the layer's entries are defined in
  SpectralDefs).

  The sum over the nodes is met in pieces: `rowsBelow` is the sum over the nodes below a bound; it is empty at
  bound 0, grows by one block of 2000 consecutive nodes at a time (`rowsBelow_succ_block`), and is the whole
  projection at bound 100000.

  The two programs bracket the last product differently: one carries the gated spectrum back to each node and then
  applies Wo to the node's row (`outByNode`), the other applies Wo to the K spectral rows once and carries the result
  back (`outBySpectrum`). The two bracketings agree when every entry is a real number
  (`outBySpectrum_eq_outByNode`): a sum of products may then be exchanged and a factor moved across a sum, which
  fails on the extended reals only at the infinities.
-/
import Idealize.ShloMosaic.Lib.ValueIdx
import Idealize.ShloMosaic.PureOps.Ideal.Laws
import proofs.«150664_g34772055229035_cont_8to1_b_1465_6_alg».proof.Proof.SpectralDefs

noncomputable section

namespace Cert.Spectral

open Idealize.ShloMosaic Idealize.ShloMosaic.ValueIdx

/-! ## The sum over the nodes, block by block -/

theorem rowsBelow_zero (x : SNxD.Idx → EReal) (ev : SNxK.Idx → EReal) (k : Fin 32) (d : Fin 128) :
    rowsBelow x ev 0 k d = 0 := by
  unfold rowsBelow
  -- no node lies below 0, so the sum is empty
  rw [Finset.filter_false_of_mem (fun n _ => Nat.not_lt_zero n.val), Finset.sum_empty]

/-- One more block of 2000 nodes: the nodes 2000 t, …, 2000 t + 1999. -/
theorem rowsBelow_succ_block (x : SNxD.Idx → EReal) (ev : SNxK.Idx → EReal) (t : Nat) (ht : t < 50) (k : Fin 32) (d : Fin 128) :
    rowsBelow x ev (2000 * (t + 1)) k d
      = rowsBelow x ev (2000 * t) k d
        + ∑ a : Fin 2000, ev (ix2 (⟨2000 * t + a.val, by omega⟩ : Fin 100000) k) * x (ix2 (⟨2000 * t + a.val, by omega⟩ : Fin 100000) d) := by
  unfold rowsBelow
  -- the nodes below 2000 (t + 1) are those below 2000 t together with the block 2000 t ≤ n < 2000 (t + 1)
  have hsplit : (Finset.univ.filter (fun n : Fin 100000 => n.val < 2000 * (t + 1)))
      = (Finset.univ.filter (fun n : Fin 100000 => n.val < 2000 * t))
        ∪ (Finset.univ.filter (fun n : Fin 100000 => 2000 * t ≤ n.val ∧ n.val < 2000 * (t + 1))) := by
    ext n
    simp only [Finset.mem_union, Finset.mem_filter, Finset.mem_univ, true_and]
    omega
  have hdisj : Disjoint (Finset.univ.filter (fun n : Fin 100000 => n.val < 2000 * t))
      (Finset.univ.filter (fun n : Fin 100000 => 2000 * t ≤ n.val ∧ n.val < 2000 * (t + 1))) := by
    rw [Finset.disjoint_filter]
    intro n _ h1 h2
    omega
  rw [hsplit, Finset.sum_union hdisj]
  refine congrArg (fun z => _ + z) ?_
  -- the block is the image of a ↦ 2000 t + a, a < 2000
  symm
  refine Finset.sum_bij (fun (a : Fin 2000) _ => (⟨2000 * t + a.val, by omega⟩ : Fin 100000)) ?_ ?_ ?_ ?_
  · intro a _
    simp only [Finset.mem_filter, Finset.mem_univ, true_and]
    omega
  · intro a _ b _ h
    have h' := congrArg Fin.val h
    simp only at h'
    exact Fin.ext (by omega)
  · intro n hn
    simp only [Finset.mem_filter, Finset.mem_univ, true_and] at hn
    exact ⟨⟨n.val - 2000 * t, by omega⟩, Finset.mem_univ _, Fin.ext (by simp only; omega)⟩
  · intro a _
    rfl

theorem rowsBelow_all (x : SNxD.Idx → EReal) (ev : SNxK.Idx → EReal) (k : Fin 32) (d : Fin 128) :
    rowsBelow x ev 100000 k d = proj x ev k d := by
  unfold rowsBelow proj
  -- every node lies below 100000
  rw [Finset.filter_true_of_mem (fun n _ => n.isLt)]

/-! ## The two bracketings agree on real entries -/

/-- The inclusion of the reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem real_mul {a b : EReal} (ha : ∃ r : ℝ, a = (r : EReal)) (hb : ∃ r : ℝ, b = (r : EReal)) :
    ∃ r : ℝ, a * b = (r : EReal) := by
  obtain ⟨p, rfl⟩ := ha
  obtain ⟨q, rfl⟩ := hb
  exact ⟨p * q, (EReal.coe_mul p q).symm⟩

theorem real_add {a b : EReal} (ha : ∃ r : ℝ, a = (r : EReal)) (hb : ∃ r : ℝ, b = (r : EReal)) :
    ∃ r : ℝ, a + b = (r : EReal) := by
  obtain ⟨p, rfl⟩ := ha
  obtain ⟨q, rfl⟩ := hb
  exact ⟨p + q, (EReal.coe_add p q).symm⟩

/-- A finite sum of real entries is real. -/
theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl (fun i _ => hg i)⟩

/-- The logistic function of a real number is a real number. -/
theorem real_logistic {a : EReal} (ha : ∃ r : ℝ, a = (r : EReal)) :
    ∃ r : ℝ, Ideal.logistic a = (r : EReal) := by
  obtain ⟨p, rfl⟩ := ha
  exact ⟨_, Ideal.logistic_coe p⟩

/-- With real inputs every entry of the gated spectrum is real. -/
theorem real_gated (x : SNxD.Idx → EReal) (ev : SNxK.Idx → EReal) (lam : SK.Idx → EReal)
    (Wf : SDxD.Idx → EReal) (bf : SD.Idx → EReal)
    (hx : ∀ i, ∃ r : ℝ, x i = (r : EReal)) (hev : ∀ i, ∃ r : ℝ, ev i = (r : EReal)) (hlam : ∀ i, ∃ r : ℝ, lam i = (r : EReal))
    (hWf : ∀ i, ∃ r : ℝ, Wf i = (r : EReal)) (hbf : ∀ i, ∃ r : ℝ, bf i = (r : EReal))
    (k : Fin 32) (d : Fin 128) : ∃ r : ℝ, gated x ev lam Wf bf k d = (r : EReal) := by
  have hscaled : ∀ k d, ∃ r : ℝ, scaled x ev lam k d = (r : EReal) := fun k d =>
    real_mul (real_sum _ _ (fun n => real_mul (hev _) (hx _))) (hlam _)
  have hmixed : ∃ r : ℝ, mixed x ev lam Wf bf k d = (r : EReal) :=
    real_add (real_sum _ _ (fun e => real_mul (hscaled k e) (hWf _))) (hbf _)
  exact real_mul (hscaled k d) (real_logistic hmixed)

theorem outBySpectrum_eq_outByNode (x : SNxD.Idx → EReal) (ev : SNxK.Idx → EReal) (lam : SK.Idx → EReal)
    (Wf : SDxD.Idx → EReal) (bf : SD.Idx → EReal) (Wo : SDxD.Idx → EReal) (bo : SD.Idx → EReal)
    (hx : ∀ i, ∃ r : ℝ, x i = (r : EReal)) (hev : ∀ i, ∃ r : ℝ, ev i = (r : EReal)) (hlam : ∀ i, ∃ r : ℝ, lam i = (r : EReal))
    (hWf : ∀ i, ∃ r : ℝ, Wf i = (r : EReal)) (hbf : ∀ i, ∃ r : ℝ, bf i = (r : EReal)) (hWo : ∀ i, ∃ r : ℝ, Wo i = (r : EReal))
    (n : Fin 100000) (d : Fin 128) :
    outBySpectrum x ev lam Wf bf Wo bo n d = outByNode x ev lam Wf bf Wo bo n d := by
  -- name the real values of the spectral basis, the gated spectrum and the output matrix
  choose evr hevr using hev
  choose wor hwor using hWo
  choose g hg using real_gated x ev lam Wf bf hx (fun i => ⟨evr i, hevr i⟩) hlam hWf hbf
  unfold outBySpectrum outByNode
  congr 2
  -- both sides are the inclusion of a real double sum
  simp only [hg, hevr, hwor, ← EReal.coe_mul, ← coe_sum]
  congr 1
  -- in the reals: move the factors inside, exchange the two sums, and regroup each product
  simp only [Finset.mul_sum, Finset.sum_mul]
  rw [Finset.sum_comm]
  refine Finset.sum_congr rfl (fun e _ => Finset.sum_congr rfl (fun k _ => ?_))
  ring

end Cert.Spectral

end
-- ==== Proof.KernelIdealValue.lean ====
/-
  The kernel's recursion at the ideal instance, as the specification's functions.

  Below point 50 the accumulator after point t holds the sum over the nodes below 2000 (t + 1) of
  basis (n, k) * features (n, d); from point 50 on it holds the gated spectrum taken through the output matrix;
  and the output block at a point t from 50 on is, at row r and column d, the specification's result (in the
  bracketing that applies the output matrix to the spectral rows first) at node 2000 (t - 50) + r.
-/
import proofs.«150664_g34772055229035_cont_8to1_b_1465_6_alg».proof.Proof.KernelIdealAcc
import proofs.«150664_g34772055229035_cont_8to1_b_1465_6_alg».proof.Proof.KernelIdealBlocks
import proofs.«150664_g34772055229035_cont_8to1_b_1465_6_alg».proof.Proof.Payloads
import proofs.«150664_g34772055229035_cont_8to1_b_1465_6_alg».proof.Proof.Spectral

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## The blocks at the rows they name -/

/-- At a point below 50 the basis block's row `a` is row `2000 t + a` of the basis array. -/
theorem evBlk_lo (c : Dev nD) (t : Fin cfg0.N) (ht : t.val < 50) (a : Fin 2000) (k : Fin 32) (i : Fin 100000)
    (hi : i.val = 2000 * t.val + a.val) : evBlk m c t (ix2 a k) = evArr m c (ix2 i k) := by
  rw [evBlk_apply]
  exact congrArg (fun z => evArr m c (ix2 z k)) (Fin.ext (by show 2000 * (t.val % 50) + a.val = i.val; omega))

/-- At a point from 50 on the basis block's row `a` is row `2000 (t - 50) + a` of the basis array. -/
theorem evBlk_hi (c : Dev nD) (t : Fin cfg0.N) (ht : 50 ≤ t.val) (a : Fin 2000) (k : Fin 32) (i : Fin 100000)
    (hi : i.val = 2000 * (t.val - 50) + a.val) : evBlk m c t (ix2 a k) = evArr m c (ix2 i k) := by
  have hN : cfg0.N = 100 := N_0
  have htl := t.isLt
  rw [evBlk_apply]
  exact congrArg (fun z => evArr m c (ix2 z k)) (Fin.ext (by show 2000 * (t.val % 50) + a.val = i.val; omega))

/-- At a point below 50 the features block's row `a` is row `2000 t + a` of the features array. -/
theorem xBlk_lo (c : Dev nD) (t : Fin cfg0.N) (ht : t.val < 50) (a : Fin 2000) (j : Fin 128) (i : Fin 100000)
    (hi : i.val = 2000 * t.val + a.val) : xBlk m c t (ix2 a j) = xArr m c (ix2 i j) := by
  rw [xBlk_apply m c t ht]
  exact congrArg (fun z => xArr m c (ix2 z j)) (Fin.ext (by show 2000 * t.val + a.val = i.val; omega))

/-- The block product at a point below 50, over the rows of the two arrays. -/
theorem block_sum (c : Dev nD) (t : Fin cfg0.N) (ht : t.val < 50) (k : Fin 32) (d : Fin 128) :
    ∑ a : Fin 2000, evBlk m c t (ix2 a k) * xBlk m c t (ix2 a d)
      = ∑ a : Fin 2000, evArr m c (ix2 (⟨2000 * t.val + a.val, by have := a.isLt; omega⟩ : Fin 100000) k)
          * xArr m c (ix2 (⟨2000 * t.val + a.val, by have := a.isLt; omega⟩ : Fin 100000) d) :=
  Finset.sum_congr rfl fun a _ => by
    have ha := a.isLt
    have hb : 2000 * t.val + a.val < 100000 := by omega
    rw [evBlk_lo m c t ht a k ⟨2000 * t.val + a.val, hb⟩ rfl, xBlk_lo m c t ht a d ⟨2000 * t.val + a.val, hb⟩ rfl]

/-! ## The accumulator below point 50: the sum over the nodes met so far -/

theorem accAt_rowsBelow_aux (c : Dev nD) (k : Fin 32) (d : Fin 128) : ∀ (n : ℕ) (hn : n < cfg0.N), n < 50 →
    accAt m c n hn (ix2 k d) = Cert.Spectral.rowsBelow (xArr m c) (evArr m c) (2000 * (n + 1)) k d := by
  intro n
  induction n with
  | zero =>
    intro hn _
    -- the first point adds its block to the zero block
    have h1 : accAt m c 0 hn = _ := accAt_first m c ⟨0, hn⟩ rfl
    have hz : Cert.Spectral.rowsBelow (xArr m c) (evArr m c) (2000 * 0) k d = 0 :=
      Cert.Spectral.rowsBelow_zero _ _ k d
    refine (congrFun h1 (ix2 k d)).trans ?_
    refine (Pay.pay2_apply _ _ _ k d).trans ?_
    refine Eq.trans ?_ (Cert.Spectral.rowsBelow_succ_block _ _ 0 (by norm_num) k d).symm
    rw [Pay.pay1_apply, hz]
    exact congrArg (fun z => (0 : EReal) + z) (block_sum m c ⟨0, hn⟩ (by norm_num) k d)
  | succ n ih =>
    intro hn h50
    -- a later point below 50 adds its block to what the previous point left
    have h1 : accAt m c (n + 1) hn = _ := accAt_acc m c ⟨n + 1, hn⟩ (Nat.succ_ne_zero n) h50
    refine (congrFun h1 (ix2 k d)).trans ?_
    refine (Pay.pay2_apply _ _ _ k d).trans ?_
    refine Eq.trans ?_ (Cert.Spectral.rowsBelow_succ_block _ _ (n + 1) h50 k d).symm
    exact congrArg₂ (fun y z : EReal => y + z) (ih (Nat.lt_of_succ_lt hn) (by omega))
      (block_sum m c ⟨n + 1, hn⟩ h50 k d)

theorem accAt_rowsBelow (c : Dev nD) (t : Fin cfg0.N) (ht : t.val < 50) (k : Fin 32) (d : Fin 128) :
    accAt m c t.val t.isLt (ix2 k d) = Cert.Spectral.rowsBelow (xArr m c) (evArr m c) (2000 * (t.val + 1)) k d := by
  exact accAt_rowsBelow_aux m c k d t.val t.isLt ht

/-! ## The accumulator from point 50 on: the gated spectrum through the output matrix -/

/-- At point 50 the accumulator holds the whole projection, which is filtered, gated and taken through Wo. -/
theorem accAt_gateAt (c : Dev nD) (t : Fin cfg0.N) (ht : t.val = 50) (k : Fin 32) (d : Fin 128) :
    accAt m c t.val t.isLt (ix2 k d)
      = ∑ e : Fin 128, Cert.Spectral.gated (xArr m c) (evArr m c) (lamArr m c) (wfArr m c) (bfArr m c) k e * woArr m c (ix2 e d) := by
  have hN : cfg0.N = 100 := N_0
  have h49 : t.val - 1 < cfg0.N := Nat.lt_of_le_of_lt (Nat.sub_le _ _) t.isLt
  have hacc : ∀ e : Fin 128, accAt m c (t.val - 1) h49 (ix2 k e) = Cert.Spectral.proj (xArr m c) (evArr m c) k e := by
    intro e
    have h := accAt_rowsBelow_aux m c k e (t.val - 1) h49 (by omega)
    rw [show 2000 * (t.val - 1 + 1) = 100000 from by omega, Cert.Spectral.rowsBelow_all] at h
    exact h
  rw [accAt_gate m c t ht, Pay.pay4_apply]
  simp only [hacc, lamBlk_apply, wfBlk_eq, bfBlk_apply, woBlk_eq]
  rfl

theorem accAt_folded_aux (c : Dev nD) (k : Fin 32) (d : Fin 128) : ∀ (n : ℕ) (hn : n < cfg0.N), 50 ≤ n →
    accAt m c n hn (ix2 k d)
      = ∑ e : Fin 128, Cert.Spectral.gated (xArr m c) (evArr m c) (lamArr m c) (wfArr m c) (bfArr m c) k e * woArr m c (ix2 e d) := by
  intro n
  induction n with
  | zero => intro _ h; omega
  | succ n ih =>
    intro hn h50
    by_cases h : n + 1 = 50
    · exact accAt_gateAt m c ⟨n + 1, hn⟩ h k d
    · -- past point 50 the accumulator is kept
      have h1 : accAt m c (n + 1) hn = accAt m c n (Nat.lt_of_succ_lt hn) :=
        accAt_keep m c ⟨n + 1, hn⟩ (by show 50 < n + 1; omega)
      rw [h1]
      exact ih _ (by omega)

theorem accAt_folded (c : Dev nD) (t : Fin cfg0.N) (ht : 50 ≤ t.val) (k : Fin 32) (d : Fin 128) :
    accAt m c t.val t.isLt (ix2 k d)
      = ∑ e : Fin 128, Cert.Spectral.gated (xArr m c) (evArr m c) (lamArr m c) (wfArr m c) (bfArr m c) k e * woArr m c (ix2 e d) := by
  exact accAt_folded_aux m c k d t.val t.isLt ht

/-! ## The output block from point 50 on -/

theorem outAt_apply (c : Dev nD) (t : Fin cfg0.N) (ht : 50 ≤ t.val) (r : Fin 2000) (d : Fin 128) :
    outAt m c t (ix2 r d)
      = Cert.Spectral.outBySpectrum (xArr m c) (evArr m c) (lamArr m c) (wfArr m c) (bfArr m c) (woArr m c) (boArr m c)
          (⟨2000 * (t.val - 50) + r.val, by have := r.isLt; have h := t.isLt; have hN : cfg0.N = 100 := N_0; omega⟩ : Fin 100000) d := by
  have hN : cfg0.N = 100 := N_0
  have htl := t.isLt
  have hrl := r.isLt
  have hb : 2000 * (t.val - 50) + r.val < 100000 := by omega
  -- the cached rows are rows 2000 (t - 50), … of the features
  have hx : rowsOf (xArr m c) ⟨(t.val - 50) % 50, Nat.mod_lt _ (by norm_num)⟩ (ix2 r d)
      = xArr m c (ix2 (⟨2000 * (t.val - 50) + r.val, hb⟩ : Fin 100000) d) := by
    rw [rowsOf_apply]
    exact congrArg (fun z => xArr m c (ix2 z d))
      (Fin.ext (by show 2000 * ((t.val - 50) % 50) + r.val = 2000 * (t.val - 50) + r.val; omega))
  have hev : ∀ k : Fin 32, evBlk m c t (ix2 r k) = evArr m c (ix2 (⟨2000 * (t.val - 50) + r.val, hb⟩ : Fin 100000) k) :=
    fun k => evBlk_hi m c t ht r k ⟨2000 * (t.val - 50) + r.val, hb⟩ rfl
  unfold outAt
  rw [Pay.pay5_apply, hx, boBlk_apply]
  simp only [hev, accAt_folded m c t ht]
  rfl

end Cert.KernelIdeal.Hand

end
-- ==== Proof.KernelIdealFinal.lean ====
/-
  The output array after the region, at the ideal instance.

  Every point from 50 on writes its output block back, point t covering rows 2000 (t - 50), …, 2000 (t - 50) + 1999;
  what it writes is that block of ONE function of the argument arrays, the specification's result in the bracketing
  that applies the output matrix to the spectral rows first. The fifty blocks cover the array, so the array ends
  holding that function.
-/
import proofs.«150664_g34772055229035_cont_8to1_b_1465_6_alg».proof.Proof.KernelIdealData
import proofs.«150664_g34772055229035_cont_8to1_b_1465_6_alg».proof.Proof.KernelIdealValue

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The layer's result over this program's argument arrays, index by index. -/
def result (c : Dev nD) : Vec Ideal S100000x128 .f32 := fun i =>
  Cert.Spectral.outBySpectrum (xArr m c) (evArr m c) (lamArr m c) (wfArr m c) (bfArr m c) (woArr m c) (boArr m c)
    (⟨(i 0).val, (i 0).isLt⟩ : Fin 100000) (⟨(i 1).val, (i 1).isLt⟩ : Fin 128)

/-- The output window's block index, decided over the grid: from point 50 on the window is on row block t - 50 of
    the one column block. -/
theorem idx_out : ∀ t : Fin cfg0.N, 50 ≤ t.val → win0_7.index t (0 : Fin 2) = t.val - 50 ∧ win0_7.index t (1 : Fin 2) = 0 :=
  (by decide +kernel : ∀ t : Fin grid0.N, 50 ≤ t.val → win0_7.index t (0 : Fin 2) = t.val - 50 ∧ win0_7.index t (1 : Fin 2) = 0)

/-- The output block at a point from 50 on, at an index of the block, is `result` at the array index whose row is
    2000 (t - 50) plus the block's row and whose column is the block's column. -/
theorem outAt_result (c : Dev nD) (t : Fin cfg0.N) (ht : 50 ≤ t.val) (y : S2000x128.Idx) (i : S100000x128.Idx)
    (h0 : (i 0).val = 2000 * (t.val - 50) + (y 0).val) (h1 : (i 1).val = (y 1).val) :
    outAt m c t y = result m c i := by
  obtain ⟨r, d, rfl⟩ : ∃ (r : Fin 2000) (d : Fin 128), y = ix2 r d := ⟨y 0, y 1, eq_ix2 y⟩
  have hN : cfg0.N = 100 := N_eq
  have htl := t.isLt
  have hrl := r.isLt
  have e0 : (⟨2000 * (t.val - 50) + r.val, by omega⟩ : Fin 100000) = ⟨(i 0).val, (i 0).isLt⟩ := Fin.ext h0.symm
  have e1 : d = (⟨(i 1).val, (i 1).isLt⟩ : Fin 128) := Fin.ext h1.symm
  rw [outAt_apply m c t ht, e0, e1]
  rfl

/-- What a point from 50 on writes back is its block of `result`. -/
theorem flushed7_eq (c : Dev nD) (t : Fin cfg0.N) (hf : (cfg0.win 7).flush t = true) :
    (dats m 0 c).flushed 7 t = ((cfg0.win 7).blk t).view.read (Elt Ideal) (result m c) := by
  have ht : 50 ≤ t.val := (flush7 t).mp hf
  obtain ⟨e0, e1⟩ := idx_out t ht
  show (cfg0.win 7).cut (grid0.coords t) ((dats m 0 c).after 7 t) = _
  rw [after_7]
  funext y
  show outAt m c t y = result m c (((cfg0.win 7).blk t).view.emb y)
  refine outAt_result m c t ht y _ ?_ ?_
  · show win0_7.index t (0 : Fin 2) * 2000 + 1 * (y 0).val = 2000 * (t.val - 50) + (y 0).val
    rw [e0]; omega
  · show win0_7.index t (1 : Fin 2) * 128 + 1 * (y 1).val = (y 1).val
    rw [e1]; omega

/-- An index of the output array is in point `t`'s block iff each coordinate is in the block's range on its axis. -/
theorem mem_blk7 (t : Fin cfg0.N) (i : S100000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v0).slice (win0_7.rect t)).set ↔ _
  rw [View.set_slice_whole, Rect.mem_set_unit]
  exact Iff.rfl

/-- Every index of the output array lies in the block of some point that writes back. -/
theorem cover7 (c : Dev nD) (i : ((cfg0.win 7).arr.view.loc (c.tc : Thread nD τ)).2.ty.Idx) :
    ∃ t : Fin cfg0.N, (cfg0.win 7).flush t = true ∧ i ∈ ((cfg0.win 7).blk t).view.set := by
  have hN : cfg0.N = 100 := N_eq
  have hi0 : (i 0).val < 100000 := (i 0).isLt
  have hi1 : (i 1).val < 128 := (i 1).isLt
  -- row r lies in the block of point 50 + r / 2000
  have hq : ∃ t : Fin cfg0.N, t.val = 50 + (i 0).val / 2000 := ⟨⟨50 + (i 0).val / 2000, by omega⟩, rfl⟩
  obtain ⟨t, hq⟩ := hq
  have ht : 50 ≤ t.val := by omega
  obtain ⟨e0, e1⟩ := idx_out t ht
  refine ⟨t, (flush7 t).mpr ht, ?_⟩
  rw [mem_blk7]
  intro a
  match a with
  | ⟨0, _⟩ =>
    show win0_7.index t (0 : Fin 2) * 2000 ≤ (i 0).val ∧ (i 0).val < win0_7.index t (0 : Fin 2) * 2000 + 2000
    rw [e0]; omega
  | ⟨1, _⟩ =>
    show win0_7.index t (1 : Fin 2) * 128 ≤ (i 1).val ∧ (i 1).val < win0_7.index t (1 : Fin 2) * 128 + 128
    rw [e1]; omega

/-- The output array after the region. -/
theorem final7 (c : Dev nD) : (dats m 0 c).arrAt 7 cfg0.N = result m c :=
  (dats m 0 c).arrAt_eq_of_cover 7 (result m c) (fun t hf => flushed7_eq m c t hf) (cover7 c)

end Cert.KernelIdeal.Hand

end
-- ==== Proof.RefValue.lean ====
/-
  The reference program's result, index by index, is the spectral layer's specification `outByNode`.

  The reference computes, stage by stage: the transposed basis times the features (the projection), times the
  eigenvalue broadcast along the feature axis (the filtered spectrum), through Wf plus the broadcast bias (the gate's
  argument), the logistic of it spelled 1 / (1 + exp (- z)), the filtered spectrum times that gate (the gated
  spectrum), carried back to the nodes by the basis, through Wo, plus the features and the broadcast output bias.
  Each stage read at an index is the matching definition of the specification; the layout operations only rename
  indices, and each renamed index is the coordinate pair the specification writes.
-/
import proofs.«150664_g34772055229035_cont_8to1_b_1465_6_alg».proof.Proof.Gen.ReferenceIdeal.Read
import proofs.«150664_g34772055229035_cont_8to1_b_1465_6_alg».proof.Proof.SpectralDefs
import Idealize.ShloMosaic.Lib.IdealHost

noncomputable section

namespace Cert.ReferenceIdeal.RefValue

open Cert.ReferenceIdeal Cert.ReferenceIdeal.Read Idealize.ShloMosaic Idealize.ShloMosaic.ValueIdx

/-! ## The renamed indices are coordinate pairs -/

/-- The transposed basis at (k, n) reads the basis at (n, k). -/
theorem idx_v0_v1 (k : Fin 32) (d : Fin 128) (n : Fin 100000) :
    idx_main_v0 (lidx_main_v1 (ix2 k d) n) = ix2 n k :=
  funext fun a => Fin.ext (by match a with | ⟨0, _⟩ => rfl | ⟨1, _⟩ => rfl)

theorem ridx_v1 (k : Fin 32) (d : Fin 128) (n : Fin 100000) :
    ridx_main_v1 (ix2 k d) n = ix2 n d :=
  funext fun a => Fin.ext (by match a with | ⟨0, _⟩ => rfl | ⟨1, _⟩ => rfl)

/-- The eigenvalue broadcast twice reads the eigenvalue of the row. -/
theorem idx_v2_v3 (k : Fin 32) (d : Fin 128) :
    idx_main_v2 (idx_main_v3 (ix2 k d)) = ix1 k :=
  funext fun a => Fin.ext (by match a with | ⟨0, _⟩ => rfl)

theorem lidx_v5 (k : Fin 32) (d : Fin 128) (e : Fin 128) :
    lidx_main_v5 (ix2 k d) e = ix2 k e :=
  funext fun a => Fin.ext (by match a with | ⟨0, _⟩ => rfl | ⟨1, _⟩ => rfl)

theorem ridx_v5 (k : Fin 32) (d : Fin 128) (e : Fin 128) :
    ridx_main_v5 (ix2 k d) e = ix2 e d :=
  funext fun a => Fin.ext (by match a with | ⟨0, _⟩ => rfl | ⟨1, _⟩ => rfl)

/-- A bias broadcast twice reads the bias of the column. -/
theorem idx_v6_v7 (k : Fin 32) (d : Fin 128) :
    idx_main_v6 (idx_main_v7 (ix2 k d)) = ix1 d :=
  funext fun a => Fin.ext (by match a with | ⟨0, _⟩ => rfl)

theorem lidx_v16 (n : Fin 100000) (d : Fin 128) (k : Fin 32) :
    lidx_main_v16 (ix2 n d) k = ix2 n k :=
  funext fun a => Fin.ext (by match a with | ⟨0, _⟩ => rfl | ⟨1, _⟩ => rfl)

theorem ridx_v16 (n : Fin 100000) (d : Fin 128) (k : Fin 32) :
    ridx_main_v16 (ix2 n d) k = ix2 k d :=
  funext fun a => Fin.ext (by match a with | ⟨0, _⟩ => rfl | ⟨1, _⟩ => rfl)

theorem lidx_v17 (n : Fin 100000) (d : Fin 128) (e : Fin 128) :
    lidx_main_v17 (ix2 n d) e = ix2 n e :=
  funext fun a => Fin.ext (by match a with | ⟨0, _⟩ => rfl | ⟨1, _⟩ => rfl)

theorem ridx_v17 (n : Fin 100000) (d : Fin 128) (e : Fin 128) :
    ridx_main_v17 (ix2 n d) e = ix2 e d :=
  funext fun a => Fin.ext (by match a with | ⟨0, _⟩ => rfl | ⟨1, _⟩ => rfl)

theorem idx_v19_v20 (n : Fin 100000) (d : Fin 128) :
    idx_main_v19 (idx_main_v20 (ix2 n d)) = ix1 d :=
  funext fun a => Fin.ext (by match a with | ⟨0, _⟩ => rfl)

/-! ## The stages -/

section Stages

variable (x0 : (⟨S100000x128, .f32⟩ : BufTy).Contents (Elt Ideal)) (x1 : (⟨S100000x32, .f32⟩ : BufTy).Contents (Elt Ideal))
  (x2 : (⟨S32, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-- The product of the projection with the broadcast eigenvalue is the filtered spectrum. -/
theorem v4_eq (k : Fin 32) (d : Fin 128) :
    val_main_v4 (F := Ideal) x0 x1 x2 (ix2 k d) = Cert.Spectral.scaled x0 x1 x2 k d := by
  rw [val_main_v4_apply, val_main_v1_apply, val_main_v3_apply, val_main_v2_apply]
  simp only [val_main_v0_apply, idx_v0_v1, ridx_v1, idx_v2_v3, Ideal.mulf_def]
  rfl

/-- Through Wf, plus the broadcast bias: the gate's argument. -/
theorem v8_eq (k : Fin 32) (d : Fin 128) :
    val_main_v8 (F := Ideal) x0 x1 x2 x3 x4 (ix2 k d) = Cert.Spectral.mixed x0 x1 x2 x3 x4 k d := by
  rw [val_main_v8_apply, val_main_v5_apply, val_main_v7_apply, val_main_v6_apply]
  simp only [lidx_v5, ridx_v5, idx_v6_v7, v4_eq, Ideal.addf_def]
  rfl

/-- One over one plus the exponential of the negated argument is the logistic of the argument. -/
theorem v14_eq (k : Fin 32) (d : Fin 128) :
    val_main_v14 (F := Ideal) x0 x1 x2 x3 x4 (ix2 k d)
      = Ideal.logistic (Cert.Spectral.mixed x0 x1 x2 x3 x4 k d) := by
  rw [val_main_v14_apply, val_main_v13_apply, val_main_cst_0_apply, val_main_v12_apply, val_main_v11_apply,
    val_main_cst_apply, val_main_v10_apply, val_main_v9_apply, v8_eq]
  simp only [Ideal.hostDivf_def, Ideal.addf_def, Ideal.hostUnary_exp_def, Ideal.hostNegf_def, Ideal.negf_def,
    Ideal.ofBits_def, Ideal.ofBits_one_f32]
  rfl

/-- The filtered spectrum times its gate. -/
theorem v15_eq (k : Fin 32) (d : Fin 128) :
    val_main_v15 (F := Ideal) x0 x1 x2 x3 x4 (ix2 k d) = Cert.Spectral.gated x0 x1 x2 x3 x4 k d := by
  rw [val_main_v15_apply, v4_eq, v14_eq]
  rfl

end Stages

/-- The reference's result at an index is the specification at its coordinates. -/
theorem result_eq (x0 : (⟨Cert.ReferenceIdeal.S100000x128, .f32⟩ : BufTy).Contents (Elt Ideal)) (x1 : (⟨Cert.ReferenceIdeal.S100000x32, .f32⟩ : BufTy).Contents (Elt Ideal)) (x2 : (⟨Cert.ReferenceIdeal.S32, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (i : Cert.ReferenceIdeal.S100000x128.Idx) :
    Cert.ReferenceIdeal.Read.val_main_v21 (F := Ideal) x0 x1 x2 x3 x4 x5 x6 i = Cert.Spectral.outByNode x0 x1 x2 x3 x4 x5 x6 (i 0) (i 1) := by
  obtain ⟨n, d, rfl⟩ : ∃ n d, i = ix2 n d := ⟨i 0, i 1, eq_ix2 i⟩
  rw [val_main_v21_apply, val_main_v18_apply, val_main_v17_apply, val_main_v20_apply, val_main_v19_apply]
  simp only [val_main_v16_apply, lidx_v17, ridx_v17, lidx_v16, ridx_v16, idx_v19_v20, v15_eq, Ideal.addf_def]
  rfl

end Cert.ReferenceIdeal.RefValue

end
-- ==== Proof.Finite.lean ====
/-
  The printed precondition `finite_inputs`, read back: when it evaluates to `true`, every entry of every
  argument is a real number (neither infinity nor the junk value).

  The predicate is the conjunction, over the seven arguments, of `all (|x| < +∞)`. Each `all` is a reduction by
  `and` into the scalar shape, so it being 1 gives the comparison's word 1 at every index; the comparison is the
  extended reals' strict order against the value of the pattern 0x7F800000, which is `⊤`; and `max x (-x) < ⊤`
  fails at both `⊥` (where `-x = ⊤`) and `⊤`, leaving the reals.
-/
import proofs.«150664_g34772055229035_cont_8to1_b_1465_6_alg».proof.Pre_finite_inputs
import proofs.«150664_g34772055229035_cont_8to1_b_1465_6_alg».proof.Proof.Gen.Pre_finite_inputs
import Idealize.ShloMosaic.Lib.ReduceAll
import Idealize.ShloMosaic.Lib.ValueIdx
import Idealize.ShloMosaic.PureOps.Ideal.Laws

namespace Cert.Proof.Finite

open Idealize.ShloMosaic Idealize.ShloMosaic.ValueIdx

/-- The scalar shape has exactly one index. -/
instance subsingleton_scalar_idx : Subsingleton Cert.Pre_finite_inputs.S_.Idx :=
  ⟨fun a b => funext fun d => d.elim0⟩

/-- The f32 pattern `0x7F800000` (exponent all ones, fraction zero, sign clear) denotes `+∞`. -/
theorem inf_bits : Ideal.ofBits .f32 0x7F800000#32 = (⊤ : EReal) := by
  simp [Ideal.ofBits, Ideal.ieee]

/-- An extended real whose absolute value `max x (-x)` is strictly below `⊤` is a real: at `⊥` the negation is
    `⊤`, at `⊤` the value itself is, and `⊤ < ⊤` is false. -/
theorem real_of_abs_lt_top (x : EReal) (h : max x (-x) < ⊤) : ∃ r : ℝ, x = (r : EReal) := by
  induction x using EReal.rec with
  | bot => simp at h
  | coe r => exact ⟨r, rfl⟩
  | top => simp at h

/-- The comparison word `|x| < +∞` being 1 says `x` is real. -/
theorem real_of_cmp (x : Ideal .f32)
    (h : FloatOps.cmpf .olt (FloatOps.hostAbsf x) (Ideal.ofBits .f32 0x7F800000#32) = 1#1) :
    ∃ r : ℝ, x = (r : EReal) := by
  rw [Ideal.hostAbsf_def, Ideal.absf_def, Ideal.cmpf_def, inf_bits] at h
  refine real_of_abs_lt_top x ?_
  by_contra hlt
  simp [Ideal.cmp, hlt] at h

/-- One conjunct of the predicate: `all (|v| < +∞)`, a reduction by `and` into the scalar shape, being 1 makes
    every entry of `v` real. -/
theorem real_of_all {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf v) (broadcastInDim s ![] hb (constant Cert.Pre_finite_inputs.S_ .f32 0x7F800000#32)))
        init hr hu ix0 = 1#1) :
    ∀ i, ∃ r : ℝ, v i = (r : EReal) := fun i =>
  real_of_cmp (v i) (Host.reduce_andi_all _ init hr hu ix0 e i)

/-- The precondition read back: if the printed predicate is `true`, every entry of each of the seven arguments is real.
    The predicate's word is the left-nested `and` of the seven `all`s; splitting it six times gives each `all` as 1. -/
theorem real_of_pre [Cert.Pre_finite_inputs.Facts]
    (a0 : FVec Ideal Cert.Pre_finite_inputs.S100000x128 .f32) (a1 : FVec Ideal Cert.Pre_finite_inputs.S100000x32 .f32) (a2 : FVec Ideal Cert.Pre_finite_inputs.S32 .f32) (a3 : FVec Ideal Cert.Pre_finite_inputs.S128x128 .f32) (a4 : FVec Ideal Cert.Pre_finite_inputs.S128 .f32) (a5 : FVec Ideal Cert.Pre_finite_inputs.S128x128 .f32) (a6 : FVec Ideal Cert.Pre_finite_inputs.S128 .f32)
    (h : Cert.Pre_finite_inputs.fn (F := Ideal) a0 a1 a2 a3 a4 a5 a6 = (fun _ => 1#1)) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) := by
  have h0 := congrFun h ix0
  dsimp only [Cert.Pre_finite_inputs.fn, Cert.Pre_finite_inputs.fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6⟩

end Cert.Proof.Finite
-- ==== Proof.Claims.lean ====
/-
  The five claims.

  The two kernel frames are the hand frame of the region at the two instances; the reference's frame is its
  generated run with the result dropped; the idealization rewrote nothing. For the value claim: at the ideal
  instance the kernel's output array ends at the specification's result with the output matrix applied to the
  spectral rows first, the reference's at the same result with the gated spectrum carried back to the nodes
  first; every argument entry is a real number under the precondition, and on real entries the two bracketings
  agree.
-/
import proofs.«150664_g34772055229035_cont_8to1_b_1465_6_alg».proof.Defs
import proofs.«150664_g34772055229035_cont_8to1_b_1465_6_alg».proof.Proof.Gen.Kernel
import proofs.«150664_g34772055229035_cont_8to1_b_1465_6_alg».proof.Proof.Gen.KernelIdeal
import proofs.«150664_g34772055229035_cont_8to1_b_1465_6_alg».proof.Proof.Gen.ReferenceIdeal
import proofs.«150664_g34772055229035_cont_8to1_b_1465_6_alg».proof.Proof.Gen.Pre_finite_inputs
import proofs.«150664_g34772055229035_cont_8to1_b_1465_6_alg».proof.Proof.Gen.ReferenceIdeal.Run
import proofs.«150664_g34772055229035_cont_8to1_b_1465_6_alg».proof.Proof.Gen.ReferenceIdeal.Read
import proofs.«150664_g34772055229035_cont_8to1_b_1465_6_alg».proof.Proof.KernelFrame
import proofs.«150664_g34772055229035_cont_8to1_b_1465_6_alg».proof.Proof.KernelIdealFrame
import proofs.«150664_g34772055229035_cont_8to1_b_1465_6_alg».proof.Proof.KernelIdealFinal
import proofs.«150664_g34772055229035_cont_8to1_b_1465_6_alg».proof.Proof.RefValue
import proofs.«150664_g34772055229035_cont_8to1_b_1465_6_alg».proof.Proof.Spectral
import proofs.«150664_g34772055229035_cont_8to1_b_1465_6_alg».proof.Proof.Finite

set_option maxRecDepth 16384

noncomputable section

namespace Cert.Proof.Claims

open Idealize.ShloMosaic Idealize.ShloMosaic.TcCoe Idealize.SL.Sem

/-! ## The kernel's run at the ideal instance, with its result named -/

section KernelRun

open Cert.KernelIdeal Cert.KernelIdeal.Gen Cert.KernelIdeal.Hand

/-- Every weakly fair execution of the idealized kernel's @main ends with the output array at `result` and the
    arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final7 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c)⟩)
    (run_main (F := Ideal) m ρ)

end KernelRun

/-! ## The claims -/

theorem frame_k : Cert.frame_Kernel :=
  fun m ρ _ => Cert.Kernel.Hand.frame (F := Bits) m ρ

theorem frame_ki : Cert.frame_KernelIdeal :=
  fun m ρ _ => Cert.KernelIdeal.Hand.frame (F := Ideal) m ρ

theorem frame_ri : Cert.frame_ReferenceIdeal :=
  fun m ρ _ => (θ_run Cert.ReferenceIdeal.defs _ _).mono (fun _ h c => (h c).2) (Cert.ReferenceIdeal.Value.run (F := Ideal) m ρ)

/-- The reference's result over the kernel's argument arrays is the kernel's result: the reference is the
    specification with the gated spectrum carried back first, and on real entries that is the other bracketing. -/
theorem ref_eq_result
    (m : (ℓ : Loc Cert.KernelIdeal.nD Cert.KernelIdeal.τ Cert.KernelIdeal.sig) → Buf (Elt Ideal) ℓ) (hpre : Cert.Pre_KernelIdeal m)
    (c : Dev Cert.KernelIdeal.nD) :
    Cert.ReferenceIdeal.Read.val_main_v21 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Hand.result m c := by
  obtain ⟨h0, h1, h2, h3, h4, h5, h6⟩ := Cert.Proof.Finite.real_of_pre _ _ _ _ _ _ _ (hpre c)
  funext i
  rw [Cert.ReferenceIdeal.RefValue.result_eq]
  unfold Cert.KernelIdeal.Hand.result
  exact (Cert.Spectral.outBySpectrum_eq_outByNode _ _ _ _ _ _ _ h0 h1 h2 h3 h4 h5 _ _).symm

theorem algebraic :
    Cert.algebraic_KernelIdeal_ReferenceIdeal := by
  intro m ρ m' ρ' hpre hagree
  refine ⟨fun c => Cert.KernelIdeal.Hand.result m c, kernel_run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v21_eq,
    (hagree c).1, (hagree c).2.1, (hagree c).2.2.1, (hagree c).2.2.2.1, (hagree c).2.2.2.2.1, (hagree c).2.2.2.2.2.1, (hagree c).2.2.2.2.2.2]
  exact ref_eq_result m hpre c

end Cert.Proof.Claims

end
-- ==== Proof.lean ====
/-
  The certificate's claim for the batched spectral layer: a kernel that accumulates the features in a spectral
  basis over fifty blocks of nodes, gates the K spectral rows, folds the output matrix into them, and carries the
  result back to the nodes block by block, against a reference that carries the gated spectrum back first and
  applies the output matrix to every node's row. Both programs run, leave their arguments unchanged, and at the
  ideal instance end with equal results: the two differ only in how a product of three matrices is bracketed and in
  how the sum over the nodes is grouped, and both agree on real entries, which the precondition provides.
  The parts: Proof/Claims.lean (the five claims), Proof/KernelIdealFrame.lean and Proof/KernelFrame.lean (the kernel
  region's frame at the two instances), Proof/KernelIdealFinal.lean (the kernel's output array),
  Proof/RefValue.lean (the reference's result), Proof/Spectral.lean (the law), Proof/Finite.lean (real entries).
-/
import proofs.«150664_g34772055229035_cont_8to1_b_1465_6_alg».proof.Defs
import proofs.«150664_g34772055229035_cont_8to1_b_1465_6_alg».proof.Proof.Gen.Kernel
import proofs.«150664_g34772055229035_cont_8to1_b_1465_6_alg».proof.Proof.Gen.KernelIdeal
import proofs.«150664_g34772055229035_cont_8to1_b_1465_6_alg».proof.Proof.Gen.ReferenceIdeal
import proofs.«150664_g34772055229035_cont_8to1_b_1465_6_alg».proof.Proof.Gen.Pre_finite_inputs
import proofs.«150664_g34772055229035_cont_8to1_b_1465_6_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
